-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x65536 : Shape := ⟨3, ![1, 512, 65536]⟩
abbrev S_ : Shape := ⟨0, ![]⟩

class Facts : Prop where
  bcast_S_S1x512x65536 : S_.BroadcastsInDim S1x512x65536 (![] : Fin 0 → Fin S1x512x65536.rank)
  reducesTo_S1x512x65536_S_d0_1_2 : S1x512x65536.ReducesTo [0, 1, 2] S_
  h_S_ : 0 < S_.numel

variable [Facts]

def fn_part2 {F : FTy → Type} [FloatOps F] (main_arg7 : FVec F S1x512x65536 .f32) (main_v33 : IVec S_ 1) : IVec S_ 1 :=
  let main_v34 : FVec F S1x512x65536 .f32 := Host.absf main_arg7
  let main_cst_12 : FVec F S_ .f32 := constant S_ .f32 0x7F800000#32
  let main_v35 : FVec F S1x512x65536 .f32 := broadcastInDim S1x512x65536 ![] bcast_S_S1x512x65536 main_cst_12
  let main_v36 : IVec S1x512x65536 1 := cmpf .olt main_v34 main_v35
  let main_c_13 : IVec S_ 1 := constantI S_ 1 1#1
  let main_v37 : IVec S_ 1 := (fun x v => Host.reduce IntOp.andi x v reducesTo_S1x512x65536_S_d0_1_2 h_S_) main_v36 main_c_13
  let main_v38 : IVec S_ 1 := andi main_v33 main_v37
  main_v38

def fn_part1 {F : FTy → Type} [FloatOps F] (main_arg4 : FVec F S1x512x65536 .f32) (main_arg5 : FVec F S1x512x65536 .f32) (main_arg6 : FVec F S1x512x65536 .f32) (main_arg7 : FVec F S1x512x65536 .f32) (main_v13 : IVec S_ 1) (main_v16 : IVec S1x512x65536 1) : IVec S_ 1 :=
  let main_c_5 : IVec S_ 1 := constantI S_ 1 1#1
  let main_v17 : IVec S_ 1 := (fun x v => Host.reduce IntOp.andi x v reducesTo_S1x512x65536_S_d0_1_2 h_S_) main_v16 main_c_5
  let main_v18 : IVec S_ 1 := andi main_v13 main_v17
  let main_v19 : FVec F S1x512x65536 .f32 := Host.absf main_arg4
  let main_cst_6 : FVec F S_ .f32 := constant S_ .f32 0x7F800000#32
  let main_v20 : FVec F S1x512x65536 .f32 := broadcastInDim S1x512x65536 ![] bcast_S_S1x512x65536 main_cst_6
  let main_v21 : IVec S1x512x65536 1 := cmpf .olt main_v19 main_v20
  let main_c_7 : IVec S_ 1 := constantI S_ 1 1#1
  let main_v22 : IVec S_ 1 := (fun x v => Host.reduce IntOp.andi x v reducesTo_S1x512x65536_S_d0_1_2 h_S_) main_v21 main_c_7
  let main_v23 : IVec S_ 1 := andi main_v18 main_v22
  let main_v24 : FVec F S1x512x65536 .f32 := Host.absf main_arg5
  let main_cst_8 : FVec F S_ .f32 := constant S_ .f32 0x7F800000#32
  let main_v25 : FVec F S1x512x65536 .f32 := broadcastInDim S1x512x65536 ![] bcast_S_S1x512x65536 main_cst_8
  let main_v26 : IVec S1x512x65536 1 := cmpf .olt main_v24 main_v25
  let main_c_9 : IVec S_ 1 := constantI S_ 1 1#1
  let main_v27 : IVec S_ 1 := (fun x v => Host.reduce IntOp.andi x v reducesTo_S1x512x65536_S_d0_1_2 h_S_) main_v26 main_c_9
  let main_v28 : IVec S_ 1 := andi main_v23 main_v27
  let main_v29 : FVec F S1x512x65536 .f32 := Host.absf main_arg6
  let main_cst_10 : FVec F S_ .f32 := constant S_ .f32 0x7F800000#32
  let main_v30 : FVec F S1x512x65536 .f32 := broadcastInDim S1x512x65536 ![] bcast_S_S1x512x65536 main_cst_10
  let main_v31 : IVec S1x512x65536 1 := cmpf .olt main_v29 main_v30
  let main_c_11 : IVec S_ 1 := constantI S_ 1 1#1
  let main_v32 : IVec S_ 1 := (fun x v => Host.reduce IntOp.andi x v reducesTo_S1x512x65536_S_d0_1_2 h_S_) main_v31 main_c_11
  let main_v33 : IVec S_ 1 := andi main_v28 main_v32
  fn_part2 (F := F) main_arg7 main_v33

def fn {F : FTy → Type} [FloatOps F] (main_arg0 : FVec F S1x512x65536 .f32) (main_arg1 : FVec F S1x512x65536 .f32) (main_arg2 : FVec F S1x512x65536 .f32) (main_arg3 : FVec F S1x512x65536 .f32) (main_arg4 : FVec F S1x512x65536 .f32) (main_arg5 : FVec F S1x512x65536 .f32) (main_arg6 : FVec F S1x512x65536 .f32) (main_arg7 : FVec F S1x512x65536 .f32) : IVec S_ 1 :=
  let main_v0 : FVec F S1x512x65536 .f32 := Host.absf main_arg0
  let main_cst : FVec F S_ .f32 := constant S_ .f32 0x7F800000#32
  let main_v1 : FVec F S1x512x65536 .f32 := broadcastInDim S1x512x65536 ![] bcast_S_S1x512x65536 main_cst
  let main_v2 : IVec S1x512x65536 1 := cmpf .olt main_v0 main_v1
  let main_c : IVec S_ 1 := constantI S_ 1 1#1
  let main_v3 : IVec S_ 1 := (fun x v => Host.reduce IntOp.andi x v reducesTo_S1x512x65536_S_d0_1_2 h_S_) main_v2 main_c
  let main_v4 : FVec F S1x512x65536 .f32 := Host.absf main_arg1
  let main_cst_0 : FVec F S_ .f32 := constant S_ .f32 0x7F800000#32
  let main_v5 : FVec F S1x512x65536 .f32 := broadcastInDim S1x512x65536 ![] bcast_S_S1x512x65536 main_cst_0
  let main_v6 : IVec S1x512x65536 1 := cmpf .olt main_v4 main_v5
  let main_c_1 : IVec S_ 1 := constantI S_ 1 1#1
  let main_v7 : IVec S_ 1 := (fun x v => Host.reduce IntOp.andi x v reducesTo_S1x512x65536_S_d0_1_2 h_S_) main_v6 main_c_1
  let main_v8 : IVec S_ 1 := andi main_v3 main_v7
  let main_v9 : FVec F S1x512x65536 .f32 := Host.absf main_arg2
  let main_cst_2 : FVec F S_ .f32 := constant S_ .f32 0x7F800000#32
  let main_v10 : FVec F S1x512x65536 .f32 := broadcastInDim S1x512x65536 ![] bcast_S_S1x512x65536 main_cst_2
  let main_v11 : IVec S1x512x65536 1 := cmpf .olt main_v9 main_v10
  let main_c_3 : IVec S_ 1 := constantI S_ 1 1#1
  let main_v12 : IVec S_ 1 := (fun x v => Host.reduce IntOp.andi x v reducesTo_S1x512x65536_S_d0_1_2 h_S_) main_v11 main_c_3
  let main_v13 : IVec S_ 1 := andi main_v8 main_v12
  let main_v14 : FVec F S1x512x65536 .f32 := Host.absf main_arg3
  let main_cst_4 : FVec F S_ .f32 := constant S_ .f32 0x7F800000#32
  let main_v15 : FVec F S1x512x65536 .f32 := broadcastInDim S1x512x65536 ![] bcast_S_S1x512x65536 main_cst_4
  let main_v16 : IVec S1x512x65536 1 := cmpf .olt main_v14 main_v15
  fn_part1 (F := F) main_arg4 main_arg5 main_arg6 main_arg7 main_v13 main_v16
-- ==== Kernel.lean ====
abbrev S1x512x65536 : Shape := ⟨3, ![1, 512, 65536]⟩
abbrev S512x65536 : Shape := ⟨2, ![512, 65536]⟩
abbrev S4x512x65536 : Shape := ⟨3, ![4, 512, 65536]⟩
abbrev S4x8x128 : Shape := ⟨3, ![4, 8, 128]⟩
abbrev S1x512x2048 : Shape := ⟨3, ![1, 512, 2048]⟩
abbrev S1x8x128 : Shape := ⟨3, ![1, 8, 128]⟩
abbrev S512x512 : Shape := ⟨2, ![512, 512]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x128 : Shape := ⟨2, ![8, 128]⟩
abbrev S4x1x1 : Shape := ⟨3, ![4, 1, 1]⟩
abbrev S4 : Shape := ⟨1, ![4]⟩
abbrev S_ : Shape := ⟨0, ![]⟩

abbrev nBuf : Space → Nat
  | .hbm => 38
  | .vmem => 10
  | .smem => 0
  | _ => 0

abbrev bufTy : (tb : Table) → Fin (tcTables nBuf tb) → BufTy
  | .hbm, ⟨0, _⟩ => ⟨S1x512x65536, .f32⟩
  | .hbm, ⟨1, _⟩ => ⟨S1x512x65536, .f32⟩
  | .hbm, ⟨2, _⟩ => ⟨S1x512x65536, .f32⟩
  | .hbm, ⟨3, _⟩ => ⟨S1x512x65536, .f32⟩
  | .hbm, ⟨4, _⟩ => ⟨S1x512x65536, .f32⟩
  | .hbm, ⟨5, _⟩ => ⟨S1x512x65536, .f32⟩
  | .hbm, ⟨6, _⟩ => ⟨S1x512x65536, .f32⟩
  | .hbm, ⟨7, _⟩ => ⟨S1x512x65536, .f32⟩
  | .hbm, ⟨8, _⟩ => ⟨S512x65536, .f32⟩
  | .hbm, ⟨9, _⟩ => ⟨S512x65536, .f32⟩
  | .hbm, ⟨10, _⟩ => ⟨S512x65536, .f32⟩
  | .hbm, ⟨11, _⟩ => ⟨S512x65536, .f32⟩
  | .hbm, ⟨12, _⟩ => ⟨S1x512x65536, .f32⟩
  | .hbm, ⟨13, _⟩ => ⟨S1x512x65536, .f32⟩
  | .hbm, ⟨14, _⟩ => ⟨S1x512x65536, .f32⟩
  | .hbm, ⟨15, _⟩ => ⟨S1x512x65536, .f32⟩
  | .hbm, ⟨16, _⟩ => ⟨S4x512x65536, .f32⟩
  | .hbm, ⟨17, _⟩ => ⟨S512x65536, .f32⟩
  | .hbm, ⟨18, _⟩ => ⟨S512x65536, .f32⟩
  | .hbm, ⟨19, _⟩ => ⟨S512x65536, .f32⟩
  | .hbm, ⟨20, _⟩ => ⟨S512x65536, .f32⟩
  | .hbm, ⟨21, _⟩ => ⟨S1x512x65536, .f32⟩
  | .hbm, ⟨22, _⟩ => ⟨S1x512x65536, .f32⟩
  | .hbm, ⟨23, _⟩ => ⟨S1x512x65536, .f32⟩
  | .hbm, ⟨24, _⟩ => ⟨S1x512x65536, .f32⟩
  | .hbm, ⟨25, _⟩ => ⟨S4x512x65536, .f32⟩
  | .hbm, ⟨26, _⟩ => ⟨S4x8x128, .f32⟩
  | .hbm, ⟨27, _⟩ => ⟨S4x8x128, .f32⟩
  | .hbm, ⟨28, _⟩ => ⟨S4x1x1, .f32⟩
  | .hbm, ⟨29, _⟩ => ⟨S4, .f32⟩
  | .hbm, ⟨30, _⟩ => ⟨S4x1x1, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S_, .f32⟩
  | .hbm, ⟨37, _⟩ => ⟨S1, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S512x512, .f32⟩
  | .local _ .vmem, ⟨9, _⟩ => ⟨S512x512, .f32⟩
  | _, _ => ⟨S1x512x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_15 : BitVec 32 := 0#32
  let v25 : BitVec 1 := Scalar.cmpi .ne v24 c0_i32_15
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1x512x65536_S512x65536 : S1x512x65536.ShapeCasts S512x65536
  bcast_S512x65536_S1x512x65536_1_2 : S512x65536.BroadcastsInDim S1x512x65536 (![1, 2] : Fin 2 → Fin S1x512x65536.rank)
  concatenates_S1x512x65536_S1x512x65536_S1x512x65536_S1x512x65536_S4x512x65536_d0 : Shape.Concatenates [S1x512x65536, S1x512x65536, S1x512x65536, S1x512x65536] S4x512x65536 0
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  transposes_S512x2048_p1_0_S2048x512 : S512x2048.Transposes [1, 0] S2048x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  bcast_S_S1 : S_.BroadcastsInDim S1 (![] : Fin 0 → Fin S1.rank)
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x512x65536.size a
  hwx0_0 : ∀ i : grid0.Coords, EltTy.bits .f32 = 32 ∨ (Rect.block (s := S4x512x65536) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x512x65536.size a
  hwx0_1 : ∀ i : grid0.Coords, EltTy.bits .f32 = 32 ∨ (Rect.block (s := S4x512x65536) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S4x8x128.size a
  hwx0_3 : ∀ i : grid0.Coords, EltTy.bits .f32 = 32 ∨ (Rect.block (s := S4x8x128) S1x8x128.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v8) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x512x65536 : Shape := ⟨3, ![1, 512, 65536]⟩
abbrev S512x65536 : Shape := ⟨2, ![512, 65536]⟩
abbrev S65536x512 : Shape := ⟨2, ![65536, 512]⟩
abbrev S512x512 : Shape := ⟨2, ![512, 512]⟩
abbrev S_ : Shape := ⟨0, ![]⟩
abbrev S1 : Shape := ⟨1, ![1]⟩
abbrev S1x1 : Shape := ⟨2, ![1, 1]⟩
abbrev S4x1 : Shape := ⟨2, ![4, 1]⟩

abbrev nBuf : Space → Nat
  | .hbm => 83
  | .vmem => 0
  | .smem => 0
  | _ => 0

abbrev bufTy : (tb : Table) → Fin (tcTables nBuf tb) → BufTy
  | .hbm, ⟨0, _⟩ => ⟨S1x512x65536, .f32⟩
  | .hbm, ⟨1, _⟩ => ⟨S1x512x65536, .f32⟩
  | .hbm, ⟨2, _⟩ => ⟨S1x512x65536, .f32⟩
  | .hbm, ⟨3, _⟩ => ⟨S1x512x65536, .f32⟩
  | .hbm, ⟨4, _⟩ => ⟨S1x512x65536, .f32⟩
  | .hbm, ⟨5, _⟩ => ⟨S1x512x65536, .f32⟩
  | .hbm, ⟨6, _⟩ => ⟨S1x512x65536, .f32⟩
  | .hbm, ⟨7, _⟩ => ⟨S1x512x65536, .f32⟩
  | .hbm, ⟨8, _⟩ => ⟨S512x65536, .f32⟩
  | .hbm, ⟨9, _⟩ => ⟨S65536x512, .f32⟩
  | .hbm, ⟨10, _⟩ => ⟨S512x512, .f32⟩
  | .hbm, ⟨11, _⟩ => ⟨S512x65536, .f32⟩
  | .hbm, ⟨12, _⟩ => ⟨S65536x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S512x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S512x65536, .f32⟩
  | .hbm, ⟨26, _⟩ => ⟨S65536x512, .f32⟩
  | .hbm, ⟨27, _⟩ => ⟨S512x512, .f32⟩
  | .hbm, ⟨28, _⟩ => ⟨S512x65536, .f32⟩
  | .hbm, ⟨29, _⟩ => ⟨S65536x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S512x512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S512x65536, .f32⟩
  | .hbm, ⟨43, _⟩ => ⟨S65536x512, .f32⟩
  | .hbm, ⟨44, _⟩ => ⟨S512x512, .f32⟩
  | .hbm, ⟨45, _⟩ => ⟨S512x65536, .f32⟩
  | .hbm, ⟨46, _⟩ => ⟨S65536x512, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S512x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1, .f32⟩
  | .hbm, ⟨59, _⟩ => ⟨S512x65536, .f32⟩
  | .hbm, ⟨60, _⟩ => ⟨S65536x512, .f32⟩
  | .hbm, ⟨61, _⟩ => ⟨S512x512, .f32⟩
  | .hbm, ⟨62, _⟩ => ⟨S512x65536, .f32⟩
  | .hbm, ⟨63, _⟩ => ⟨S65536x512, .f32⟩
  | .hbm, ⟨64, _⟩ => ⟨S512x512, .f32⟩
  | .hbm, ⟨65, _⟩ => ⟨S512x512, .f32⟩
  | .hbm, ⟨66, _⟩ => ⟨S512x512, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S512x512, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S1x1, .f32⟩
  | .hbm, ⟨77, _⟩ => ⟨S1x1, .f32⟩
  | .hbm, ⟨78, _⟩ => ⟨S1x1, .f32⟩
  | .hbm, ⟨79, _⟩ => ⟨S1x1, .f32⟩
  | .hbm, ⟨80, _⟩ => ⟨S4x1, .f32⟩
  | .hbm, ⟨81, _⟩ => ⟨S_, .f32⟩
  | .hbm, ⟨82, _⟩ => ⟨S1, .f32⟩
  | _, _ => ⟨S1x512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v7 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call2_v0 : Ref sig .tc := ⟨.hbm, 32, rfl⟩
abbrev main_call2_cst : Ref sig .tc := ⟨.hbm, 33, rfl⟩
abbrev main_call2_v1 : Ref sig .tc := ⟨.hbm, 34, rfl⟩
abbrev main_v18 : Ref sig .tc := ⟨.hbm, 35, rfl⟩
abbrev main_call3_v0 : Ref sig .tc := ⟨.hbm, 36, rfl⟩
abbrev main_call3_cst : Ref sig .tc := ⟨.hbm, 37, rfl⟩
abbrev main_call3_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call4_v0 : Ref sig .tc := ⟨.hbm, 49, rfl⟩
abbrev main_call4_cst : Ref sig .tc := ⟨.hbm, 50, rfl⟩
abbrev main_call4_v1 : Ref sig .tc := ⟨.hbm, 51, rfl⟩
abbrev main_v29 : Ref sig .tc := ⟨.hbm, 52, rfl⟩
abbrev main_call5_v0 : Ref sig .tc := ⟨.hbm, 53, rfl⟩
abbrev main_call5_cst : Ref sig .tc := ⟨.hbm, 54, rfl⟩
abbrev main_call5_v1 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call6_v0 : Ref sig .tc := ⟨.hbm, 66, rfl⟩
abbrev main_call6_cst : Ref sig .tc := ⟨.hbm, 67, rfl⟩
abbrev main_call6_v1 : Ref sig .tc := ⟨.hbm, 68, rfl⟩
abbrev main_v40 : Ref sig .tc := ⟨.hbm, 69, rfl⟩
abbrev main_call7_v0 : Ref sig .tc := ⟨.hbm, 70, rfl⟩
abbrev main_call7_cst : Ref sig .tc := ⟨.hbm, 71, rfl⟩
abbrev main_call7_v1 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst : Ref sig .tc := ⟨.hbm, 81, rfl⟩
abbrev main_v49 : Ref sig .tc := ⟨.hbm, 82, rfl⟩

abbrev nD : Nat := 1
abbrev τ : Topo := Topo.v7x

variable {F : FTy → Type} [FloatOps F]

class Facts₀ : Prop where
  shapeCasts_S1x512x65536_S512x65536 : S1x512x65536.ShapeCasts S512x65536
  transposes_S512x65536_S65536x512_1_0 : S512x65536.Transposes [1, 0] S65536x512
  reducesTo_S512x512_S_d0_1 : S512x512.ReducesTo [0, 1] S_
  h_S_ : 0 < S_.numel
  bcast_S_S1 : S_.BroadcastsInDim S1 (![] : Fin 0 → Fin S1.rank)
  bcast_S1_S1x1_1 : S1.BroadcastsInDim S1x1 (![1] : Fin 1 → Fin S1x1.rank)
  concatenates_S1x1_S1x1_S1x1_S1x1_S4x1_d0 : Shape.Concatenates [S1x1, S1x1, S1x1, S1x1] S4x1 0
  reducesTo_S4x1_S1_d0 : S4x1.ReducesTo [0] S1
  dot_S512x65536_S65536x512_S512x512_1_0_0_1_n_n_wf : DotDims.WF S512x65536 S65536x512 S512x512 [1] [0] [0] [1] [] []

variable [Facts₀]

def dot_S512x65536_S65536x512_S512x512_1_0_0_1_n_n : DotDims S512x65536 S65536x512 S512x512 where
  lhsContracting := [1]
  rhsContracting := [0]
  lhsNonContracting := [0]
  rhsNonContracting := [1]
  lhsBatch := []
  rhsBatch := []
  wf := dot_S512x65536_S65536x512_S512x512_1_0_0_1_n_n_wf

class Facts : Prop extends Facts₀ where

variable [Facts]
-- ==== Proof.KernelFrameBase.lean ====
/-
  The frame of the four-layer Gram-loss kernel, first part: the program around its one region.

  @main is eighteen host operations (each argument reshaped to a matrix and broadcast back to a one-layer
  slab, the four activation slabs and the four target slabs concatenated into two stacked arrays), the
  region over the grid 4 x 32 (layer, column tile), and ten host operations on the region's two results.
  Here: the buffer contents the region finds (the fold of the first stretch), that no host operation
  writes an argument, each window's block at a grid point, and the two branch conditions of the body
  in closed form: the accumulators are reset where the tile index is 0 and the two sums of squares are
  stored where it is 31; the result windows are idle and not written back at every other point.
-/
import proofs.«146373_j18141941858429_1_alg».proof.Proof.Gen.Kernel.Launch
import proofs.«146373_j18141941858429_1_alg».proof.Proof.Gen.Kernel.Skeleton
import proofs.«146373_j18141941858429_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the eighteen host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the ten later operations, entered at the contents after the first
    eighteen. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 7, and it is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activation window's current staging buffer holds its block at every point, for any proof data whose array is
    the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the target window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post read at the eight argument arrays (none is an array of the pipeline: each
    bypasses the region and no host operation writes it) to the frame claim's post, at any F. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body's two branch conditions -/

/-- The first branch (reset both accumulators) is taken where the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The second branch (reduce and store the two sums of squares) is taken where the tile coordinate is 31. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second branch is not taken the two result windows are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- One staging buffer of each result window, through which its contents are stated. -/
abbrev VO0_2 : View sig .tc .vmem S1x8x128 .f32 := (Memref.whole cc0_stg2_0 : Memref sig .tc .vmem S1x8x128 .f32).view
abbrev VO0_3 : View sig .tc .vmem S1x8x128 .f32 := (Memref.whole cc0_stg3_0 : Memref sig .tc .vmem S1x8x128 .f32).view
/-- Each window's current staging memref at point t, as the pipeline passes it, and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S512x512 .f32 := Memref.whole cc0_scratch0
abbrev scM0_1 : Memref sig .tc .vmem S512x512 .f32 := Memref.whole cc0_scratch1
abbrev VS0_0 : View sig .tc .vmem S512x512 .f32 := scM0_0.view
abbrev VS0_1 : View sig .tc .vmem S512x512 .f32 := scM0_1.view

/-- The launch's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.KernelRunA.lean ====
/-
  The kernel body where the tile coordinate is 0 and not 31: both accumulators are stored whole with zeros, then each is
  loaded and stored back with its tile's product added; nothing is stored into the result windows. The body is run on
  whole memrefs, the inputs' at their contents, the result windows' at contents handed back untouched, the accumulators'
  at anything; the stores each accumulator ends with are found by the run.
-/
import proofs.«146373_j18141941858429_1_alg».proof.Proof.KernelFrameBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S1x512x2048 .f32) (x1 : Vec F S1x512x2048 .f32) :
    Σ' (LS0 : List (View.Piece (Elt F) S512x512 .f32)), { LS1 : List (View.Piece (Elt F) S512x512 .f32) //
      ∀ (xi2 : Vec F S1x8x128 .f32) (xi3 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gram_loss_kernel i arg2 harg2 arg3 harg3 arg4 harg4 arg5 harg5 arg6 harg6 arg7 harg7) K } := by
  refine ⟨?_, ?_, fun xi2 xi3 E K => ?run⟩
  case run =>
    simp only [cc0__gram_loss_kernel_eq_skeleton]; unfold cc0__gram_loss_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.KernelRunB.lean ====
/-
  The kernel body where the tile coordinate is neither 0 nor 31: each accumulator, at what the point before left, is
  loaded and stored back with its tile's product added; nothing is stored into the result windows.
-/
import proofs.«146373_j18141941858429_1_alg».proof.Proof.KernelRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S1x512x2048 .f32) (x1 : Vec F S1x512x2048 .f32) (xs0 : Vec F S512x512 .f32) (xs1 : Vec F S512x512 .f32) :
    Σ' (LS0 : List (View.Piece (Elt F) S512x512 .f32)), { LS1 : List (View.Piece (Elt F) S512x512 .f32) //
      ∀ (xi2 : Vec F S1x8x128 .f32) (xi3 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gram_loss_kernel i arg2 harg2 arg3 harg3 arg4 harg4 arg5 harg5 arg6 harg6 arg7 harg7) K } := by
  refine ⟨?_, ?_, fun xi2 xi3 E K => ?run⟩
  case run =>
    simp only [cc0__gram_loss_kernel_eq_skeleton]; unfold cc0__gram_loss_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.KernelRunC.lean ====
/-
  The kernel body where the tile coordinate is 31: each accumulator, at what the point before left, is loaded and stored
  back with its tile's product added; then the two sums of squares are reduced from the accumulators and stored,
  broadcast, into the two result windows, whose buffers are at anything before.
-/
import proofs.«146373_j18141941858429_1_alg».proof.Proof.KernelRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) :
    Σ' (L2 : List (View.Piece (Elt F) S1x8x128 .f32)) (L3 : List (View.Piece (Elt F) S1x8x128 .f32)) (LS0 : List (View.Piece (Elt F) S512x512 .f32)), { LS1 : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gram_loss_kernel i arg2 harg2 arg3 harg3 arg4 harg4 arg5 harg5 arg6 harg6 arg7 harg7) K } := by
  refine ⟨?_, ?_, ?_, ?_, fun E K => ?run⟩
  case run =>
    simp only [cc0__gram_loss_kernel_eq_skeleton]; unfold cc0__gram_loss_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Fr

end
-- ==== Proof.KernelFrame.lean ====
/-
  The frame of the four-layer Gram-loss kernel, second part: what the two result windows' buffers and the two
  accumulators hold after each grid point, the pipeline's proof data, the body at every point, and the run.

  The grid's points are numbered t = 32 * layer + tile. Where t mod 32 = 0 the body resets both accumulators
  and adds the tile's products; elsewhere it adds the tile's products to what the point before left; where
  t mod 32 = 31 it also reduces the accumulators to the two sums of squares and stores them into the result
  windows, which are written back there and idle everywhere else. The region's invariant carries the two
  accumulators at the contents the point before left.
-/
import proofs.«146373_j18141941858429_1_alg».proof.Proof.KernelRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A placeholder for a result window's buffer at a point where the window is idle: nothing consults it. -/
def junk2 : Vec F S1x8x128 .f32 := VO0_2.read (Elt F) VO0_2.junk
def junk3 : Vec F S1x8x128 .f32 := VO0_3.read (Elt F) VO0_3.junk

/-- Where the tile coordinate is 0 the stores into the activation accumulator cover it. -/
theorem scover0_A_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S1x512x2048 .f32) (x1 : Vec F S1x512x2048 .f32) (y : S512x512.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S512x512.size (by sl_kernel_rfl) y
/-- What that case leaves in the activation accumulator: its stores read back. -/
def sout0_A_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S1x512x2048 .f32) (x1 : Vec F S1x512x2048 .f32) : Vec F S512x512 .f32 :=
  VS0_0.read (Elt F) (VS0_0.writes (Elt F) VS0_0.junk (kernelRun0_A c i arg2 harg2 arg3 harg3 arg4 harg4 arg5 harg5 arg6 harg6 arg7 harg7 hc0 hc1 x0 x1).1)
/-- The same for the target accumulator. -/
theorem scover0_A_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S1x512x2048 .f32) (x1 : Vec F S1x512x2048 .f32) (y : S512x512.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S512x512.size (by sl_kernel_rfl) y
/-- What that case leaves in the target accumulator. -/
def sout0_A_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S1x512x2048 .f32) (x1 : Vec F S1x512x2048 .f32) : Vec F S512x512 .f32 :=
  VS0_1.read (Elt F) (VS0_1.writes (Elt F) VS0_1.junk (kernelRun0_A c i arg2 harg2 arg3 harg3 arg4 harg4 arg5 harg5 arg6 harg6 arg7 harg7 hc0 hc1 x0 x1).2.1)
/-- Where the tile coordinate is neither 0 nor 31 the store into the activation accumulator covers it. -/
theorem scover0_B_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S1x512x2048 .f32) (x1 : Vec F S1x512x2048 .f32) (xs0 : Vec F S512x512 .f32) (xs1 : Vec F S512x512 .f32) (y : S512x512.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S512x512.size (by sl_kernel_rfl) y
/-- What that case leaves in the activation accumulator, over what the point before left. -/
def sout0_B_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S1x512x2048 .f32) (x1 : Vec F S1x512x2048 .f32) (xs0 : Vec F S512x512 .f32) (xs1 : Vec F S512x512 .f32) : Vec F S512x512 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
/-- The same for the target accumulator. -/
theorem scover0_B_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S1x512x2048 .f32) (x1 : Vec F S1x512x2048 .f32) (xs0 : Vec F S512x512 .f32) (xs1 : Vec F S512x512 .f32) (y : S512x512.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S512x512.size (by sl_kernel_rfl) y
/-- What that case leaves in the target accumulator. -/
def sout0_B_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S1x512x2048 .f32) (x1 : Vec F S1x512x2048 .f32) (xs0 : Vec F S512x512 .f32) (xs1 : Vec F S512x512 .f32) : Vec F S512x512 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)
/-- Where the tile coordinate is 31 the store into the first result window covers its block. -/
theorem cover0_C_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) (y : S1x8x128.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x8x128.size (by sl_kernel_rfl) y
/-- What that case leaves in the first result window's buffer. -/
def out0_C_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) : Vec F S1x8x128 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
/-- The same for the second result window. -/
theorem cover0_C_3 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) (y : S1x8x128.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x8x128.size (by sl_kernel_rfl) y
/-- What that case leaves in the second result window's buffer. -/
def out0_C_3 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) : Vec F S1x8x128 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
/-- Its store into the activation accumulator covers it. -/
theorem scover0_C_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) (y : S512x512.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S512x512.size (by sl_kernel_rfl) y
/-- What that case leaves in the activation accumulator. -/
def sout0_C_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) : Vec F S512x512 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
/-- Its store into the target accumulator covers it. -/
theorem scover0_C_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) (y : S512x512.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S512x512.size (by sl_kernel_rfl) y
/-- What that case leaves in the target accumulator. -/
def sout0_C_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) : Vec F S512x512 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## What the buffers hold after each point -/

/-- After the body at position n: the two result windows' buffers (placeholders where they are idle), then the two
    accumulators: the case the closed forms select at n, run at the point's memrefs and input blocks, over what
    the point before left in the accumulators. -/
def outsAt0 (c : Dev nD) : (n : ℕ) → n < cfg0.N → Vec F S1x8x128 .f32 × Vec F S1x8x128 .f32 × Vec F S512x512 .f32 × Vec F S512x512 .f32
  | 0, hn => (junk2, junk3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 32 = 0 then
      if h1 : (n + 1) % 32 = 31 then
        False.elim (by omega)
      else
        (junk2, junk3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2)
      else
        (junk2, junk3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 32 = 0) (h1 : ¬t.val % 32 = 31) :
    outsAt0 m c t.val t.isLt = (junk2, junk3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (junk2, junk3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the launch's (every scratch at anything);
    afterwards the two accumulators at what the point before left and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the region finds them; after the body at point t each input's buffer at its block and the result
    windows' at the contents above; the invariant the tracking one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the closed forms say which case the point is in;
    the invariant hands the body the accumulators (at anything at the first point, else at what the point before
    left) and takes them back at this point's contents, by the covers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 32 = 0
  · by_cases h1 : t.val % 32 = 31
    · exfalso; omega
    · have hn1 : ¬cond0_1 (grid0.coords t) := fun h => h1 ((hcond0_1 t).mp h)
      rw [Dat.leavesExact_idle (dats m 0 c) 2 t (idleAt0_2 t hn1) (noFlush0_2 t hn1)]
      rw [Dat.leavesExact_idle (dats m 0 c) 3 t (idleAt0_3 t hn1) (noFlush0_3 t hn1)]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) hn1 (iblk m c 0 t) (iblk m c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) hn1 (iblk m c 0 t) (iblk m c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
  · have hn0 : ¬cond0_0 (grid0.coords t) := fun h => h0 ((hcond0_0 t).mp h)
    have hz : t.val ≠ 0 := fun hz => h0 (by rw [hz])
    by_cases h1 : t.val % 32 = 31
    · have hp1 : cond0_1 (grid0.coords t) := (hcond0_1 t).mpr h1
      rw [show (dats m 0 c).leavesExact 2 t = owns (c : Thread nD τ) (ms0_2 t) fullShare ((dats m 0 c).after 2 t) from by
        unfold Dat.leavesExact; rw [liveAt0_2 t hp1], after0_2]
      rw [show (dats m 0 c).leavesExact 3 t = owns (c : Thread nD τ) (ms0_3 t) fullShare ((dats m 0 c).after 3 t) from by
        unfold Dat.leavesExact; rw [liveAt0_3 t hp1], after0_3]
      rw [outsAt0_C m c t h0 h1]
      unfold out0_C_2 out0_C_3 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_C c (grid0.coords t) _ _ _ _ _ _ _ _ _ _ _ _ hn0 hp1 (iblk m c 0 t) (iblk m c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      · unfold owns; iexists _; isplitr
        swap; · iexact H3
        ipureintro; exact View.read_writes_of_cover _ _ _ _ _ (cover0_C_3 c _ _ _ _ _ _ _ _ _ _ _ _ _ _ _ _ _ _ _)
    · have hn1 : ¬cond0_1 (grid0.coords t) := fun h => h1 ((hcond0_1 t).mp h)
      rw [Dat.leavesExact_idle (dats m 0 c) 2 t (idleAt0_2 t hn1) (noFlush0_2 t hn1)]
      rw [Dat.leavesExact_idle (dats m 0 c) 3 t (idleAt0_3 t hn1) (noFlush0_3 t hn1)]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ hn0 hn1 (iblk m c 0 t) (iblk m c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has every array of the pipeline at what the
    library computes from the proof data and every other unscoped buffer as the ten later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the eight argument arrays end as launched, at any F. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Fr

end
-- ==== Proof.KernelIdealFrameBase.lean ====
/-
  The frame of the four-layer Gram-loss kernel, first part: the program around its one region.

  @main is eighteen host operations (each argument reshaped to a matrix and broadcast back to a one-layer
  slab, the four activation slabs and the four target slabs concatenated into two stacked arrays), the
  region over the grid 4 x 32 (layer, column tile), and ten host operations on the region's two results.
  Here: the buffer contents the region finds (the fold of the first stretch), that no host operation
  writes an argument, each window's block at a grid point, and the two branch conditions of the body
  in closed form: the accumulators are reset where the tile index is 0 and the two sums of squares are
  stored where it is 31; the result windows are idle and not written back at every other point.
-/
import proofs.«146373_j18141941858429_1_alg».proof.Proof.Gen.KernelIdeal.Launch
import proofs.«146373_j18141941858429_1_alg».proof.Proof.Gen.KernelIdeal.Skeleton
import proofs.«146373_j18141941858429_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the eighteen host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the ten later operations, entered at the contents after the first
    eighteen. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 7, and it is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activation window's current staging buffer holds its block at every point, for any proof data whose array is
    the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the target window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post read at the eight argument arrays (none is an array of the pipeline: each
    bypasses the region and no host operation writes it) to the frame claim's post, at any F. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body's two branch conditions -/

/-- The first branch (reset both accumulators) is taken where the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The second branch (reduce and store the two sums of squares) is taken where the tile coordinate is 31. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second branch is not taken the two result windows are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- One staging buffer of each result window, through which its contents are stated. -/
abbrev VO0_2 : View sig .tc .vmem S1x8x128 .f32 := (Memref.whole cc0_stg2_0 : Memref sig .tc .vmem S1x8x128 .f32).view
abbrev VO0_3 : View sig .tc .vmem S1x8x128 .f32 := (Memref.whole cc0_stg3_0 : Memref sig .tc .vmem S1x8x128 .f32).view
/-- Each window's current staging memref at point t, as the pipeline passes it, and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S512x512 .f32 := Memref.whole cc0_scratch0
abbrev scM0_1 : Memref sig .tc .vmem S512x512 .f32 := Memref.whole cc0_scratch1
abbrev VS0_0 : View sig .tc .vmem S512x512 .f32 := scM0_0.view
abbrev VS0_1 : View sig .tc .vmem S512x512 .f32 := scM0_1.view

/-- The launch's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KernelIdealRunA.lean ====
/-
  The kernel body where the tile coordinate is 0 and not 31: both accumulators are stored whole with zeros, then each is
  loaded and stored back with its tile's product added; nothing is stored into the result windows. The body is run on
  whole memrefs, the inputs' at their contents, the result windows' at contents handed back untouched, the accumulators'
  at anything; the stores each accumulator ends with are found by the run.
-/
import proofs.«146373_j18141941858429_1_alg».proof.Proof.KernelIdealFrameBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S1x512x2048 .f32) (x1 : Vec F S1x512x2048 .f32) :
    Σ' (LS0 : List (View.Piece (Elt F) S512x512 .f32)), { LS1 : List (View.Piece (Elt F) S512x512 .f32) //
      ∀ (xi2 : Vec F S1x8x128 .f32) (xi3 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gram_loss_kernel i arg2 harg2 arg3 harg3 arg4 harg4 arg5 harg5 arg6 harg6 arg7 harg7) K } := by
  refine ⟨?_, ?_, fun xi2 xi3 E K => ?run⟩
  case run =>
    simp only [cc0__gram_loss_kernel_eq_skeleton]; unfold cc0__gram_loss_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.KernelIdealRunB.lean ====
/-
  The kernel body where the tile coordinate is neither 0 nor 31: each accumulator, at what the point before left, is
  loaded and stored back with its tile's product added; nothing is stored into the result windows.
-/
import proofs.«146373_j18141941858429_1_alg».proof.Proof.KernelIdealRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S1x512x2048 .f32) (x1 : Vec F S1x512x2048 .f32) (xs0 : Vec F S512x512 .f32) (xs1 : Vec F S512x512 .f32) :
    Σ' (LS0 : List (View.Piece (Elt F) S512x512 .f32)), { LS1 : List (View.Piece (Elt F) S512x512 .f32) //
      ∀ (xi2 : Vec F S1x8x128 .f32) (xi3 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gram_loss_kernel i arg2 harg2 arg3 harg3 arg4 harg4 arg5 harg5 arg6 harg6 arg7 harg7) K } := by
  refine ⟨?_, ?_, fun xi2 xi3 E K => ?run⟩
  case run =>
    simp only [cc0__gram_loss_kernel_eq_skeleton]; unfold cc0__gram_loss_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.KernelIdealRunC.lean ====
/-
  The kernel body where the tile coordinate is 31: each accumulator, at what the point before left, is loaded and stored
  back with its tile's product added; then the two sums of squares are reduced from the accumulators and stored,
  broadcast, into the two result windows, whose buffers are at anything before.
-/
import proofs.«146373_j18141941858429_1_alg».proof.Proof.KernelIdealRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) :
    Σ' (L2 : List (View.Piece (Elt F) S1x8x128 .f32)) (L3 : List (View.Piece (Elt F) S1x8x128 .f32)) (LS0 : List (View.Piece (Elt F) S512x512 .f32)), { LS1 : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gram_loss_kernel i arg2 harg2 arg3 harg3 arg4 harg4 arg5 harg5 arg6 harg6 arg7 harg7) K } := by
  refine ⟨?_, ?_, ?_, ?_, fun E K => ?run⟩
  case run =>
    simp only [cc0__gram_loss_kernel_eq_skeleton]; unfold cc0__gram_loss_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Fr

end
-- ==== Proof.KernelIdealFrame.lean ====
/-
  The frame of the four-layer Gram-loss kernel, second part: what the two result windows' buffers and the two
  accumulators hold after each grid point, the pipeline's proof data, the body at every point, and the run.

  The grid's points are numbered t = 32 * layer + tile. Where t mod 32 = 0 the body resets both accumulators
  and adds the tile's products; elsewhere it adds the tile's products to what the point before left; where
  t mod 32 = 31 it also reduces the accumulators to the two sums of squares and stores them into the result
  windows, which are written back there and idle everywhere else. The region's invariant carries the two
  accumulators at the contents the point before left.
-/
import proofs.«146373_j18141941858429_1_alg».proof.Proof.KernelIdealRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A placeholder for a result window's buffer at a point where the window is idle: nothing consults it. -/
def junk2 : Vec F S1x8x128 .f32 := VO0_2.read (Elt F) VO0_2.junk
def junk3 : Vec F S1x8x128 .f32 := VO0_3.read (Elt F) VO0_3.junk

/-- Where the tile coordinate is 0 the stores into the activation accumulator cover it. -/
theorem scover0_A_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S1x512x2048 .f32) (x1 : Vec F S1x512x2048 .f32) (y : S512x512.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S512x512.size (by sl_kernel_rfl) y
/-- What that case leaves in the activation accumulator: its stores read back. -/
def sout0_A_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S1x512x2048 .f32) (x1 : Vec F S1x512x2048 .f32) : Vec F S512x512 .f32 :=
  VS0_0.read (Elt F) (VS0_0.writes (Elt F) VS0_0.junk (kernelRun0_A c i arg2 harg2 arg3 harg3 arg4 harg4 arg5 harg5 arg6 harg6 arg7 harg7 hc0 hc1 x0 x1).1)
/-- The same for the target accumulator. -/
theorem scover0_A_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S1x512x2048 .f32) (x1 : Vec F S1x512x2048 .f32) (y : S512x512.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S512x512.size (by sl_kernel_rfl) y
/-- What that case leaves in the target accumulator. -/
def sout0_A_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S1x512x2048 .f32) (x1 : Vec F S1x512x2048 .f32) : Vec F S512x512 .f32 :=
  VS0_1.read (Elt F) (VS0_1.writes (Elt F) VS0_1.junk (kernelRun0_A c i arg2 harg2 arg3 harg3 arg4 harg4 arg5 harg5 arg6 harg6 arg7 harg7 hc0 hc1 x0 x1).2.1)
/-- Where the tile coordinate is neither 0 nor 31 the store into the activation accumulator covers it. -/
theorem scover0_B_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S1x512x2048 .f32) (x1 : Vec F S1x512x2048 .f32) (xs0 : Vec F S512x512 .f32) (xs1 : Vec F S512x512 .f32) (y : S512x512.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S512x512.size (by sl_kernel_rfl) y
/-- What that case leaves in the activation accumulator, over what the point before left. -/
def sout0_B_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S1x512x2048 .f32) (x1 : Vec F S1x512x2048 .f32) (xs0 : Vec F S512x512 .f32) (xs1 : Vec F S512x512 .f32) : Vec F S512x512 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
/-- The same for the target accumulator. -/
theorem scover0_B_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S1x512x2048 .f32) (x1 : Vec F S1x512x2048 .f32) (xs0 : Vec F S512x512 .f32) (xs1 : Vec F S512x512 .f32) (y : S512x512.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S512x512.size (by sl_kernel_rfl) y
/-- What that case leaves in the target accumulator. -/
def sout0_B_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S1x512x2048 .f32) (x1 : Vec F S1x512x2048 .f32) (xs0 : Vec F S512x512 .f32) (xs1 : Vec F S512x512 .f32) : Vec F S512x512 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)
/-- Where the tile coordinate is 31 the store into the first result window covers its block. -/
theorem cover0_C_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) (y : S1x8x128.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x8x128.size (by sl_kernel_rfl) y
/-- What that case leaves in the first result window's buffer. -/
def out0_C_2 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) : Vec F S1x8x128 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
/-- The same for the second result window. -/
theorem cover0_C_3 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) (y : S1x8x128.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x8x128.size (by sl_kernel_rfl) y
/-- What that case leaves in the second result window's buffer. -/
def out0_C_3 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) : Vec F S1x8x128 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
/-- Its store into the activation accumulator covers it. -/
theorem scover0_C_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) (y : S512x512.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S512x512.size (by sl_kernel_rfl) y
/-- What that case leaves in the activation accumulator. -/
def sout0_C_0 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) : Vec F S512x512 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
/-- Its store into the target accumulator covers it. -/
theorem scover0_C_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) (y : S512x512.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S512x512.size (by sl_kernel_rfl) y
/-- What that case leaves in the target accumulator. -/
def sout0_C_1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S1x512x2048 .f32) (x1 : Vec F S1x512x2048 .f32) (xs0 : Vec F S512x512 .f32) (xs1 : Vec F S512x512 .f32) : Vec F S512x512 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## What the buffers hold after each point -/

/-- After the body at position n: the two result windows' buffers (placeholders where they are idle), then the two
    accumulators: the case the closed forms select at n, run at the point's memrefs and input blocks, over what
    the point before left in the accumulators. -/
def outsAt0 (c : Dev nD) : (n : ℕ) → n < cfg0.N → Vec F S1x8x128 .f32 × Vec F S1x8x128 .f32 × Vec F S512x512 .f32 × Vec F S512x512 .f32
  | 0, hn => (junk2, junk3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 32 = 0 then
      if h1 : (n + 1) % 32 = 31 then
        False.elim (by omega)
      else
        (junk2, junk3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2)
      else
        (junk2, junk3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 32 = 0) (h1 : ¬t.val % 32 = 31) :
    outsAt0 m c t.val t.isLt = (junk2, junk3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (junk2, junk3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the launch's (every scratch at anything);
    afterwards the two accumulators at what the point before left and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the region finds them; after the body at point t each input's buffer at its block and the result
    windows' at the contents above; the invariant the tracking one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the closed forms say which case the point is in;
    the invariant hands the body the accumulators (at anything at the first point, else at what the point before
    left) and takes them back at this point's contents, by the covers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 32 = 0
  · by_cases h1 : t.val % 32 = 31
    · exfalso; omega
    · have hn1 : ¬cond0_1 (grid0.coords t) := fun h => h1 ((hcond0_1 t).mp h)
      rw [Dat.leavesExact_idle (dats m 0 c) 2 t (idleAt0_2 t hn1) (noFlush0_2 t hn1)]
      rw [Dat.leavesExact_idle (dats m 0 c) 3 t (idleAt0_3 t hn1) (noFlush0_3 t hn1)]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) hn1 (iblk m c 0 t) (iblk m c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) hn1 (iblk m c 0 t) (iblk m c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
  · have hn0 : ¬cond0_0 (grid0.coords t) := fun h => h0 ((hcond0_0 t).mp h)
    have hz : t.val ≠ 0 := fun hz => h0 (by rw [hz])
    by_cases h1 : t.val % 32 = 31
    · have hp1 : cond0_1 (grid0.coords t) := (hcond0_1 t).mpr h1
      rw [show (dats m 0 c).leavesExact 2 t = owns (c : Thread nD τ) (ms0_2 t) fullShare ((dats m 0 c).after 2 t) from by
        unfold Dat.leavesExact; rw [liveAt0_2 t hp1], after0_2]
      rw [show (dats m 0 c).leavesExact 3 t = owns (c : Thread nD τ) (ms0_3 t) fullShare ((dats m 0 c).after 3 t) from by
        unfold Dat.leavesExact; rw [liveAt0_3 t hp1], after0_3]
      rw [outsAt0_C m c t h0 h1]
      unfold out0_C_2 out0_C_3 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_C c (grid0.coords t) _ _ _ _ _ _ _ _ _ _ _ _ hn0 hp1 (iblk m c 0 t) (iblk m c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      · unfold owns; iexists _; isplitr
        swap; · iexact H3
        ipureintro; exact View.read_writes_of_cover _ _ _ _ _ (cover0_C_3 c _ _ _ _ _ _ _ _ _ _ _ _ _ _ _ _ _ _ _)
    · have hn1 : ¬cond0_1 (grid0.coords t) := fun h => h1 ((hcond0_1 t).mp h)
      rw [Dat.leavesExact_idle (dats m 0 c) 2 t (idleAt0_2 t hn1) (noFlush0_2 t hn1)]
      rw [Dat.leavesExact_idle (dats m 0 c) 3 t (idleAt0_3 t hn1) (noFlush0_3 t hn1)]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ hn0 hn1 (iblk m c 0 t) (iblk m c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has every array of the pipeline at what the
    library computes from the proof data and every other unscoped buffer as the ten later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the eight argument arrays end as launched, at any F. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Fr

end
-- ==== Proof.KernelIdealPieces.lean ====
/-
  What each control case of the kernel body leaves in the two Gram accumulators and in the two result windows, as the
  body's payloads of the input tiles and of what the accumulators held before: the stores each run found, read back.
  Where the tile coordinate is 0 the accumulators are first zeroed, so the update is over the zero block; elsewhere it
  is over what the point before left; where the tile coordinate is 31 the two sums of squares are taken of the
  accumulators as just updated.
-/
import proofs.«146373_j18141941858429_1_alg».proof.Proof.KernelIdealFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 whole-buffer access. -/
private theorem hz2 : (![0, 0] : Fin 2 → Nat) = fun _ => 0 := funext fun a => by fin_cases a <;> rfl
/-- The zero offsets of a rank-3 whole-buffer access. -/
private theorem hz3 : (![0, 0, 0] : Fin 3 → Nat) = fun _ => 0 := funext fun a => by fin_cases a <;> rfl

/-- Tile coordinate 0: the activation accumulator, zeroed and read back, ends at its update over the zero block. -/
theorem sout0_A_0_eq (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 x1 : Vec F S1x512x2048 .f32) :
    sout0_A_0 c i arg2 harg2 arg3 harg3 arg4 harg4 arg5 harg5 arg6 harg6 arg7 harg7 hc0 hc1 x0 x1 = k0_pay3 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S512x512) hz2, View.readCov_unit_zero (S := S512x512) _ hz2]
  simp only [View.readAt_eq_ld, harg2.read_unread, harg3.read_unread, harg6.read_unread, harg7.read_unread,
    View.ld_unit_zero (S := S1x512x2048) hz3, View.ld_unit_zero (S := S512x512) hz2]

/-- Tile coordinate 0: the target accumulator likewise. -/
theorem sout0_A_1_eq (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 x1 : Vec F S1x512x2048 .f32) :
    sout0_A_1 c i arg2 harg2 arg3 harg3 arg4 harg4 arg5 harg5 arg6 harg6 arg7 harg7 hc0 hc1 x0 x1 = k0_pay4 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S512x512) hz2, View.readCov_unit_zero (S := S512x512) _ hz2]
  simp only [View.readAt_eq_ld, harg2.read_unread, harg3.read_unread, harg6.read_unread, harg7.read_unread,
    View.ld_unit_zero (S := S1x512x2048) hz3, View.ld_unit_zero (S := S512x512) hz2]

/-- Tile coordinate neither 0 nor 31: the activation accumulator ends at its update over what it held. -/
theorem sout0_B_0_eq (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 x1 : Vec F S1x512x2048 .f32) (xs0 xs1 : Vec F S512x512 .f32) :
    sout0_B_0 c i arg2 harg2 arg3 harg3 arg4 harg4 arg5 harg5 arg6 harg6 arg7 harg7 hc0 hc1 x0 x1 xs0 xs1 = k0_pay3 x0 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S1x512x2048) hz3, View.ld_unit_zero (S := S512x512) hz2]

/-- Tile coordinate neither 0 nor 31: the target accumulator likewise. -/
theorem sout0_B_1_eq (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 x1 : Vec F S1x512x2048 .f32) (xs0 xs1 : Vec F S512x512 .f32) :
    sout0_B_1 c i arg2 harg2 arg3 harg3 arg4 harg4 arg5 harg5 arg6 harg6 arg7 harg7 hc0 hc1 x0 x1 xs0 xs1 = k0_pay4 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S1x512x2048) hz3, View.ld_unit_zero (S := S512x512) hz2]

/-- Tile coordinate 31: the activation accumulator ends at its update over what it held. -/
theorem sout0_C_0_eq (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 : Vec F S1x512x2048 .f32) (xs0 xs1 : Vec F S512x512 .f32) :
    sout0_C_0 c i arg2 harg2 arg3 harg3 arg4 harg4 arg5 harg5 arg6 harg6 arg7 harg7 hc0 hc1 x0 x1 xs0 xs1 = k0_pay3 x0 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S1x512x2048) hz3, View.ld_unit_zero (S := S512x512) hz2]

/-- Tile coordinate 31: the target accumulator likewise. -/
theorem sout0_C_1_eq (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 : Vec F S1x512x2048 .f32) (xs0 xs1 : Vec F S512x512 .f32) :
    sout0_C_1 c i arg2 harg2 arg3 harg3 arg4 harg4 arg5 harg5 arg6 harg6 arg7 harg7 hc0 hc1 x0 x1 xs0 xs1 = k0_pay4 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S1x512x2048) hz3, View.ld_unit_zero (S := S512x512) hz2]

/-- Tile coordinate 31: the first result window's buffer holds the sum of squares of the difference of the two accumulators as just updated, broadcast. -/
theorem out0_C_2_eq (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 : Vec F S1x512x2048 .f32) (xs0 xs1 : Vec F S512x512 .f32) :
    out0_C_2 c i arg2 harg2 arg3 harg3 arg4 harg4 arg5 harg5 arg6 harg6 arg7 harg7 hc0 hc1 x0 x1 xs0 xs1 = k0_pay5 (k0_pay4 x1 xs1) (k0_pay3 x0 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread,
    View.ld_unit_zero (S := S1x512x2048) hz3, View.ld_unit_zero (S := S512x512) hz2,
    View.readCov_unit_zero (S := S512x512) _ hz2]

/-- Tile coordinate 31: the second result window's buffer holds the sum of squares of the target accumulator as just updated, broadcast. -/
theorem out0_C_3_eq (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 : Vec F S1x512x2048 .f32) (xs0 xs1 : Vec F S512x512 .f32) :
    out0_C_3 c i arg2 harg2 arg3 harg3 arg4 harg4 arg5 harg5 arg6 harg6 arg7 harg7 hc0 hc1 x0 x1 xs0 xs1 = k0_pay6 (k0_pay4 x1 xs1) (k0_pay4 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread,
    View.ld_unit_zero (S := S1x512x2048) hz3, View.ld_unit_zero (S := S512x512) hz2,
    View.readCov_unit_zero (S := S512x512) _ hz2]

end Cert.KernelIdeal.Fr

end
-- ==== Proof.Spec.lean ====
/-
  What both programs compute, as one function of the eight argument arrays.

  For a layer's activation array a and target array t, each of shape 1 x 512 x 65536, the Gram matrix of a is
  gram a i j = sum over the 65536 columns k of a(0,i,k) * a(0,j,k). The layer's loss is the Frobenius norm of
  gram t - gram a over the Frobenius norm of gram t, each norm the square root of a sum of squares over the
  512 x 512 entries, and the result is the sum of the four layers' losses, as a one-element array.
  All arithmetic is on the extended reals; square root and quotient are the ideal instance's own.
-/
import Idealize.ShloMosaic.PureOps.Ideal
import Idealize.ShloMosaic.Lib.ValueIdx

noncomputable section

namespace Cert.Spec

open Idealize.ShloMosaic Idealize.ShloMosaic.ValueIdx

/-- A layer's array: one slab of 512 rows and 65536 columns. -/
abbrev Arr : Type := (⟨3, ![1, 512, 65536]⟩ : Shape).Idx → EReal

/-- Entry (i, j) of the Gram matrix of the slab's rows. -/
def gram (x : Arr) (i j : Fin 512) : EReal := ∑ k : Fin 65536, x (ix3 0 i k) * x (ix3 0 j k)

/-- The squared Frobenius norm of the difference of the target's and the activation's Gram matrices. -/
def numer (a t : Arr) : EReal := ∑ i : Fin 512, ∑ j : Fin 512, (gram t i j - gram a i j) * (gram t i j - gram a i j)

/-- The squared Frobenius norm of the target's Gram matrix. -/
def denom (t : Arr) : EReal := ∑ i : Fin 512, ∑ j : Fin 512, gram t i j * gram t i j

/-- One layer's loss. -/
def loss (a t : Arr) : EReal := Ideal.div (Ideal.sqrt (numer a t)) (Ideal.sqrt (denom t))

/-- The sum of the four layers' losses. -/
def total (a0 a1 a2 a3 t0 t1 t2 t3 : Arr) : EReal := loss a0 t0 + loss a1 t1 + loss a2 t2 + loss a3 t3

/-- The result array: one element, the total. -/
def G (a0 a1 a2 a3 t0 t1 t2 t3 : Arr) : (⟨1, ![1]⟩ : Shape).Idx → EReal := fun _ => total a0 a1 a2 a3 t0 t1 t2 t3

end Cert.Spec

end
-- ==== Proof.KernelIdealBlocks.lean ====
/-
  The two input windows' blocks as columns of the launched slabs.

  Before the region each of the eight argument slabs (1 x 512 x 65536) is flattened to a 512 x 65536 matrix and
  spread back over a leading unit axis, and the four activation slabs, and the four target slabs, are stacked
  along the leading axis into two 4 x 512 x 65536 arrays. Flattening and spreading back is the identity, so layer
  l of a stack is the launched slab l, entry by entry. The region walks the grid 4 x 32 (layer, column tile), the
  last coordinate fastest: point t is layer t / 32 and tile t mod 32, and each input window's block there is the
  1 x 512 x 2048 block at block index (layer, 0, tile). Hence entry (0, i, k) of the block at point t is entry
  (0, i, 2048 (t mod 32) + k) of slab t / 32.
-/
import proofs.«146373_j18141941858429_1_alg».proof.Proof.KernelIdealFrameBase
import proofs.«146373_j18141941858429_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- Layer l's activation slab, and its target slab, as launched. -/
def actArr (c : Dev nD) : Fin 4 → Cert.Spec.Arr
  | 0 => m ((c : Thread nD τ).loc main_arg0) | 1 => m ((c : Thread nD τ).loc main_arg1) | 2 => m ((c : Thread nD τ).loc main_arg2) | 3 => m ((c : Thread nD τ).loc main_arg3)
def tgtArr (c : Dev nD) : Fin 4 → Cert.Spec.Arr
  | 0 => m ((c : Thread nD τ).loc main_arg4) | 1 => m ((c : Thread nD τ).loc main_arg5) | 2 => m ((c : Thread nD τ).loc main_arg6) | 3 => m ((c : Thread nD τ).loc main_arg7)

/-- A slab flattened to a matrix and spread back over a leading unit axis is the slab. -/
theorem slab_roundtrip (x : S1x512x65536.Idx → EReal) (hs : S1x512x65536.ShapeCasts S512x65536)
    (hb : S512x65536.BroadcastsInDim S1x512x65536 (![1, 2] : Fin 2 → Fin S1x512x65536.rank)) (i : Fin 512) (k : Fin 65536) :
    broadcastInDim S1x512x65536 ![1, 2] hb (shapeCast S512x65536 x hs) (ix3 (0 : Fin 1) i k) = x (ix3 (0 : Fin 1) i k) := by
  rw [broadcastInDim_apply ![1, 2] hb _ _ (ix2 i k) (fun a => by
    match a with
    | ⟨0, _⟩ => rfl
    | ⟨1, _⟩ => rfl)]
  exact shapeCast_1ab_ab_apply x hs i k

/-- Four slabs stacked along the leading axis: layer l of the stack is slab l. -/
theorem stack4_apply (x0 x1 x2 x3 : S1x512x65536.Idx → EReal)
    (h : Shape.Concatenates [S1x512x65536, S1x512x65536, S1x512x65536, S1x512x65536] S4x512x65536 0)
    (l : Fin 4) (i : Fin 512) (k : Fin 65536) :
    concatenate S4x512x65536 0 [⟨S1x512x65536, x0⟩, ⟨S1x512x65536, x1⟩, ⟨S1x512x65536, x2⟩, ⟨S1x512x65536, x3⟩] h (ix3 l i k)
      = (match l with | 0 => x0 | 1 => x1 | 2 => x2 | 3 => x3) (ix3 (0 : Fin 1) i k) := by
  have hi : ∀ b : Fin S1x512x65536.rank, b.cast (rfl : S1x512x65536.rank = S4x512x65536.rank) ≠ (0 : Fin S4x512x65536.rank) →
      ((ix3 (0 : Fin 1) i k) b).val = ((ix3 l i k) (b.cast rfl)).val := fun b hb => by
    match b with
    | ⟨0, _⟩ => exact absurd rfl hb
    | ⟨1, _⟩ => rfl
    | ⟨2, _⟩ => rfl
  fin_cases l
  · exact concatenate_apply_piece (t := S4x512x65536) 0 [⟨S1x512x65536, x0⟩, ⟨S1x512x65536, x1⟩, ⟨S1x512x65536, x2⟩, ⟨S1x512x65536, x3⟩] h _ 0 (by simp) S1x512x65536 x0 rfl rfl 0 rfl (ix3 (0 : Fin 1) i k) hi rfl
  · exact concatenate_apply_piece (t := S4x512x65536) 0 [⟨S1x512x65536, x0⟩, ⟨S1x512x65536, x1⟩, ⟨S1x512x65536, x2⟩, ⟨S1x512x65536, x3⟩] h _ 1 (by simp) S1x512x65536 x1 rfl rfl 1 rfl (ix3 (0 : Fin 1) i k) hi rfl
  · exact concatenate_apply_piece (t := S4x512x65536) 0 [⟨S1x512x65536, x0⟩, ⟨S1x512x65536, x1⟩, ⟨S1x512x65536, x2⟩, ⟨S1x512x65536, x3⟩] h _ 2 (by simp) S1x512x65536 x2 rfl rfl 2 rfl (ix3 (0 : Fin 1) i k) hi rfl
  · exact concatenate_apply_piece (t := S4x512x65536) 0 [⟨S1x512x65536, x0⟩, ⟨S1x512x65536, x1⟩, ⟨S1x512x65536, x2⟩, ⟨S1x512x65536, x3⟩] h _ 3 (by simp) S1x512x65536 x3 rfl rfl 3 rfl (ix3 (0 : Fin 1) i k) hi rfl

/-- The stacked activation array the region finds: the four launched activation slabs, each flattened and spread back,
    stacked along the leading axis. -/
theorem V_main_v8_eq (c : Dev nD) :
    (V m c main_v8 : S4x512x65536.Idx → EReal) =
      concatenate S4x512x65536 0
        [⟨S1x512x65536, broadcastInDim S1x512x65536 ![1, 2] Facts₀.bcast_S512x65536_S1x512x65536_1_2 (shapeCast S512x65536 (m ((c : Thread nD τ).loc main_arg0)) Facts₀.shapeCasts_S1x512x65536_S512x65536)⟩,
         ⟨S1x512x65536, broadcastInDim S1x512x65536 ![1, 2] Facts₀.bcast_S512x65536_S1x512x65536_1_2 (shapeCast S512x65536 (m ((c : Thread nD τ).loc main_arg1)) Facts₀.shapeCasts_S1x512x65536_S512x65536)⟩,
         ⟨S1x512x65536, broadcastInDim S1x512x65536 ![1, 2] Facts₀.bcast_S512x65536_S1x512x65536_1_2 (shapeCast S512x65536 (m ((c : Thread nD τ).loc main_arg2)) Facts₀.shapeCasts_S1x512x65536_S512x65536)⟩,
         ⟨S1x512x65536, broadcastInDim S1x512x65536 ![1, 2] Facts₀.bcast_S512x65536_S1x512x65536_1_2 (shapeCast S512x65536 (m ((c : Thread nD τ).loc main_arg3)) Facts₀.shapeCasts_S1x512x65536_S512x65536)⟩]
        Facts₀.concatenates_S1x512x65536_S1x512x65536_S1x512x65536_S1x512x65536_S4x512x65536_d0 := by
  dsimp only [V, V0]
  simp only [hostOps0, List.flatten_cons, List.flatten_nil, List.append_nil, List.cons_append, List.nil_append]
  after_results
  rfl

/-- The stacked target array the region finds, likewise. -/
theorem V_main_v17_eq (c : Dev nD) :
    (V m c main_v17 : S4x512x65536.Idx → EReal) =
      concatenate S4x512x65536 0
        [⟨S1x512x65536, broadcastInDim S1x512x65536 ![1, 2] Facts₀.bcast_S512x65536_S1x512x65536_1_2 (shapeCast S512x65536 (m ((c : Thread nD τ).loc main_arg4)) Facts₀.shapeCasts_S1x512x65536_S512x65536)⟩,
         ⟨S1x512x65536, broadcastInDim S1x512x65536 ![1, 2] Facts₀.bcast_S512x65536_S1x512x65536_1_2 (shapeCast S512x65536 (m ((c : Thread nD τ).loc main_arg5)) Facts₀.shapeCasts_S1x512x65536_S512x65536)⟩,
         ⟨S1x512x65536, broadcastInDim S1x512x65536 ![1, 2] Facts₀.bcast_S512x65536_S1x512x65536_1_2 (shapeCast S512x65536 (m ((c : Thread nD τ).loc main_arg6)) Facts₀.shapeCasts_S1x512x65536_S512x65536)⟩,
         ⟨S1x512x65536, broadcastInDim S1x512x65536 ![1, 2] Facts₀.bcast_S512x65536_S1x512x65536_1_2 (shapeCast S512x65536 (m ((c : Thread nD τ).loc main_arg7)) Facts₀.shapeCasts_S1x512x65536_S512x65536)⟩]
        Facts₀.concatenates_S1x512x65536_S1x512x65536_S1x512x65536_S1x512x65536_S4x512x65536_d0 := by
  dsimp only [V, V0]
  simp only [hostOps0, List.flatten_cons, List.flatten_nil, List.append_nil, List.cons_append, List.nil_append]
  after_results
  rfl

/-- Layer l of the stacked activation array is the launched activation slab l. -/
theorem V_main_v8_apply (c : Dev nD) (l : Fin 4) (i : Fin 512) (k : Fin 65536) :
    V m c main_v8 (ix3 l i k) = actArr m c l (ix3 (0 : Fin 1) i k) := by
  refine (congrFun (V_main_v8_eq m c) (ix3 l i k)).trans ?_
  rw [stack4_apply]
  fin_cases l <;> exact slab_roundtrip _ _ _ i k

/-- Layer l of the stacked target array is the launched target slab l. -/
theorem V_main_v17_apply (c : Dev nD) (l : Fin 4) (i : Fin 512) (k : Fin 65536) :
    V m c main_v17 (ix3 l i k) = tgtArr m c l (ix3 (0 : Fin 1) i k) := by
  refine (congrFun (V_main_v17_eq m c) (ix3 l i k)).trans ?_
  rw [stack4_apply]
  fin_cases l <;> exact slab_roundtrip _ _ _ i k

/-- The block indices of the two input windows at a grid point, in closed form: (layer, 0, column tile), the layer the
    point over 32 and the tile the point modulo 32. -/
theorem idx_in : ∀ t : Fin cfg0.N,
    win0_0.index t (0 : Fin 3) = t.val / 32 ∧ win0_0.index t (1 : Fin 3) = 0 ∧ win0_0.index t (2 : Fin 3) = t.val % 32
    ∧ win0_1.index t (0 : Fin 3) = t.val / 32 ∧ win0_1.index t (1 : Fin 3) = 0 ∧ win0_1.index t (2 : Fin 3) = t.val % 32 :=
  (by decide +kernel : ∀ t : Fin grid0.N, _)

/-- The activation window's block at point t is columns 2048 (t mod 32) … of the launched activation slab t / 32. -/
theorem iblk0_apply (c : Dev nD) (t : Fin cfg0.N) (i : Fin 512) (k : Fin 2048) :
    iblk m c 0 t (ix3 (0 : Fin 1) i k)
      = actArr m c ⟨t.val / 32, by have := t.isLt; have : cfg0.N = 128 := N_0; omega⟩
          (ix3 (0 : Fin 1) i ⟨t.val % 32 * 2048 + k.val, by have := k.isLt; omega⟩) := by
  obtain ⟨e0, e1, e2, -, -, -⟩ := idx_in t
  rw [← V_main_v8_apply m c]
  unfold iblk
  rw [View.read_apply]
  show V m c main_v8 _ = V m c main_v8 _
  refine congrArg (V m c main_v8) (funext fun a => Fin.ext ?_)
  match a with
  | ⟨0, _⟩ => show win0_0.index t (0 : Fin 3) * 1 + 1 * 0 = t.val / 32; rw [e0]; omega
  | ⟨1, _⟩ => show win0_0.index t (1 : Fin 3) * 512 + 1 * i.val = i.val; rw [e1]; omega
  | ⟨2, _⟩ => show win0_0.index t (2 : Fin 3) * 2048 + 1 * k.val = t.val % 32 * 2048 + k.val; rw [e2]; omega

/-- The target window's block at point t is columns 2048 (t mod 32) … of the launched target slab t / 32. -/
theorem iblk1_apply (c : Dev nD) (t : Fin cfg0.N) (i : Fin 512) (k : Fin 2048) :
    iblk m c 1 t (ix3 (0 : Fin 1) i k)
      = tgtArr m c ⟨t.val / 32, by have := t.isLt; have : cfg0.N = 128 := N_0; omega⟩
          (ix3 (0 : Fin 1) i ⟨t.val % 32 * 2048 + k.val, by have := k.isLt; omega⟩) := by
  obtain ⟨-, -, -, e0, e1, e2⟩ := idx_in t
  rw [← V_main_v17_apply m c]
  unfold iblk
  rw [View.read_apply]
  show V m c main_v17 _ = V m c main_v17 _
  refine congrArg (V m c main_v17) (funext fun a => Fin.ext ?_)
  match a with
  | ⟨0, _⟩ => show win0_1.index t (0 : Fin 3) * 1 + 1 * 0 = t.val / 32; rw [e0]; omega
  | ⟨1, _⟩ => show win0_1.index t (1 : Fin 3) * 512 + 1 * i.val = i.val; rw [e1]; omega
  | ⟨2, _⟩ => show win0_1.index t (2 : Fin 3) * 2048 + 1 * k.val = t.val % 32 * 2048 + k.val; rw [e2]; omega

end Cert.KernelIdeal.Fr

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.Payloads.lean ====
/-
  The six pure values the kernel body stores, read at an index, at the extended reals.

  * The two initial stores write the zero splat: every entry is 0.
  * The two accumulating stores write the old accumulator plus the tile's Gram product: entry (i, j) is the old
    entry plus the sum over the tile's 2048 columns k of x (i, k) * x (j, k). The narrowing to sixteen bits is the
    identity on extended reals, the [1, 512, 2048] tile is read as [512, 2048], and the right operand of the product
    is the left one transposed.
  * The two closing stores write one number at every entry of a [1, 8, 128] block: the sum over all 512 x 512 entries
    of the elementwise product of two matrices (for the first, of the difference of two matrices with itself): a sum
    along the rows, kept as a column, a sum down that column, and the one resulting number broadcast.
-/
import proofs.«146373_j18141941858429_1_alg».proof.Proof.Gen.KernelIdeal.Skeleton
import proofs.«146373_j18141941858429_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The zero splats -/

/-- The first initial store's value is 0 at every entry. -/
theorem pay1_apply (y : S512x512.Idx) : k0_pay1 (F := Ideal) y = 0 := by
  unfold k0_pay1
  refine (congrFun (shapeCast_self _ _) y).trans ?_
  exact Ideal.ofBits_zero_f32

/-- The second initial store's value is 0 at every entry. -/
theorem pay2_apply (y : S512x512.Idx) : k0_pay2 (F := Ideal) y = 0 := by
  unfold k0_pay2
  refine (congrFun (shapeCast_self _ _) y).trans ?_
  exact Ideal.ofBits_zero_f32

/-! ## The Gram product of a tile -/

/-- The product's dimension numbers are the plain rows-by-columns ones. -/
theorem dot_eq_plain : dot_S512x2048_S2048x512_S512x512_1_0_0_1_n_n = DotDims.plain 512 2048 512 := rfl

/-- A [512, 2048] matrix times its transpose, into the zero accumulator, at (i, j): the sum over the columns k of
    x (i, k) * x (j, k). -/
theorem gram_tile_apply {φ : FTy} (x : FVec Ideal S512x2048 φ) (i j : Fin 512) :
    matmul dot_S512x2048_S2048x512_S512x512_1_0_0_1_n_n none x
        (transpose S2048x512 [1, 0] x transposes_S512x2048_p1_0_S2048x512)
        (constant (F := Ideal) S512x512 .f32 0x00000000#32) (ix2 i j)
      = ∑ k : Fin 2048, x (ix2 i k) * x (ix2 j k) := by
  rw [dot_eq_plain]
  refine (Cert.LibPlainDot.matmul_plain_apply 512 2048 512 x _ i j).trans ?_
  exact Finset.sum_congr rfl fun k _ =>
    congrArg (x (ix2 i k) * ·) (transpose_ix2_apply x transposes_S512x2048_p1_0_S2048x512 k j)

/-- The [1, 512, 2048] tile read as [512, 2048] and narrowed, at (i, k): the tile at (0, i, k). -/
theorem tile_apply (v : FVec Ideal S1x512x2048 .f32) (i : Fin 512) (k : Fin 2048) :
    truncf (F := Ideal) .bf16 (shapeCast S512x2048 v shapeCasts_S1x512x2048_S512x2048) bitsLt_bf16_f32 (ix2 i k)
      = v (ix3 0 i k) :=
  shapeCast_1ab_ab_apply v shapeCasts_S1x512x2048_S512x2048 i k

/-- The first accumulating store's value at (i, j): the old entry plus the tile's Gram product there. -/
theorem pay3_apply (v3 : Vec Ideal S1x512x2048 .f32) (v9 : Vec Ideal S512x512 .f32) (i j : Fin 512) :
    k0_pay3 (F := Ideal) v3 v9 (ix2 i j) = v9 (ix2 i j) + ∑ k : Fin 2048, v3 (ix3 0 i k) * v3 (ix3 0 j k) := by
  unfold k0_pay3
  refine (congrFun (shapeCast_self _ _) (ix2 i j)).trans ?_
  refine (addf_apply _ _ _).trans ?_
  refine congrArg (v9 (ix2 i j) + ·) ?_
  refine (gram_tile_apply _ i j).trans ?_
  exact Finset.sum_congr rfl fun k _ => by rw [tile_apply v3 i k, tile_apply v3 j k]

/-- The second accumulating store's value at (i, j): the old entry plus the tile's Gram product there. -/
theorem pay4_apply (v6 : Vec Ideal S1x512x2048 .f32) (v16 : Vec Ideal S512x512 .f32) (i j : Fin 512) :
    k0_pay4 (F := Ideal) v6 v16 (ix2 i j) = v16 (ix2 i j) + ∑ k : Fin 2048, v6 (ix3 0 i k) * v6 (ix3 0 j k) := by
  unfold k0_pay4
  refine (congrFun (shapeCast_self _ _) (ix2 i j)).trans ?_
  refine (addf_apply _ _ _).trans ?_
  refine congrArg (v16 (ix2 i j) + ·) ?_
  refine (gram_tile_apply _ i j).trans ?_
  exact Finset.sum_congr rfl fun k _ => by rw [tile_apply v6 i k, tile_apply v6 j k]

/-! ## The total of a 512 x 512 matrix, broadcast -/

/-- The source index over row i with column k inserted is (i, k). -/
theorem lift_row (h : S512x512.Reduces [1] S512) (i k : Fin 512) : h.lift (ix1 i) k = ix2 i k :=
  funext fun c => Fin.ext (by
    match c with
    | ⟨0, _⟩ => rfl
    | ⟨1, _⟩ => rfl)

/-- The source index over the one entry of a column's total with row k inserted is (k, 0). -/
theorem lift_col (h : S512x1.Reduces [0] S1) (z : Fin 1) (k : Fin 512) : h.lift (ix1 z) k = ix2 k z :=
  funext fun c => Fin.ext (by
    match c with
    | ⟨0, _⟩ => rfl
    | ⟨1, _⟩ => rfl)

/-- The sum along the rows of a 512 x 512 matrix, at row i. -/
theorem rowSum_apply (x : FVec Ideal S512x512 .f32) (hφ : FKind.Formats .f32)
    (hacc : (0x00000000#32 : BitVec (FTy.bits .f32)) = FKind.add.neutral .f32 hφ) (i : Fin 512) :
    multiReduction (F := Ideal) .add [1] S512 x 0x00000000#32 reduces_S512x512_S512 hφ hacc (ix1 i)
      = ∑ j : Fin 512, x (ix2 i j) := by
  refine (Ideal.multiReduction_add_single x 0x00000000#32 reduces_S512x512_S512 hφ hacc (ix1 i)).trans ?_
  exact Finset.sum_congr rfl fun k _ => congrArg x (lift_row reduces_S512x512_S512 i k)

/-- The sum down a 512 x 1 column, at its one entry. -/
theorem colSum_apply (x : FVec Ideal S512x1 .f32) (hφ : FKind.Formats .f32)
    (hacc : (0x00000000#32 : BitVec (FTy.bits .f32)) = FKind.add.neutral .f32 hφ) (z : Fin 1) :
    multiReduction (F := Ideal) .add [0] S1 x 0x00000000#32 reduces_S512x1_S1 hφ hacc (ix1 z)
      = ∑ i : Fin 512, x (ix2 i z) := by
  refine (Ideal.multiReduction_add_single x 0x00000000#32 reduces_S512x1_S1 hφ hacc (ix1 z)).trans ?_
  exact Finset.sum_congr rfl fun k _ => congrArg x (lift_col reduces_S512x1_S1 z k)

/-- A 512-vector kept as a 512 x 1 column, at (i, 0): the vector at i. -/
theorem keepCol_apply {α : Type} (x : S512.Idx → α) (i : Fin 512) (z : Fin 1) :
    shapeCast S512x1 x shapeCasts_S512_S512x1 (ix2 i z) = x (ix1 i) :=
  shapeCast_apply x shapeCasts_S512_S512x1 (ix2 i z) (ix1 i) (by
    rw [Shape.rowMajor_val_one, Shape.rowMajor_val_two]
    have hz : z.val = 0 := by omega
    show i.val = i.val * 1 + z.val
    rw [hz, Nat.mul_one, Nat.add_zero])

/-- Every index of the one-entry shape is the index 0. -/
theorem idx1_eq (k : S1.Idx) : k = ix1 (0 : Fin 1) :=
  (eq_ix1 k).trans (congrArg (ix1 (n := 1)) (Subsingleton.elim _ _))

/-- One number recast [1] to [1, 1] twice over, broadcast to [8, 128] and recast to [1, 8, 128] is that number at every
    entry. -/
theorem splat_apply {α : Type} (v : S1.Idx → α) (y : S1x8x128.Idx) :
    shapeCast S1x8x128 (broadcastTo S8x128 (shapeCast S1x1 (shapeCast S1x1 v shapeCasts_S1_S1x1) shapeCasts_S1x1_S1x1)
        broadcasts_S1x1_S8x128) shapeCasts_S8x128_S1x8x128 y = v (ix1 (0 : Fin 1)) := by
  unfold shapeCast broadcastTo
  exact congrArg v (idx1_eq _)

/-- The whole closing chain on a 512 x 512 matrix: its total, at every entry of the [1, 8, 128] block. -/
theorem total_apply (x : FVec Ideal S512x512 .f32) (y : S1x8x128.Idx) :
    shapeCast S1x8x128 (broadcastTo S8x128 (shapeCast S1x1 (shapeCast S1x1
        (multiReduction (F := Ideal) .add [0] S1
          (shapeCast S512x1 (multiReduction (F := Ideal) .add [1] S512 x 0x00000000#32 reduces_S512x512_S512 (.inl rfl) rfl)
            shapeCasts_S512_S512x1)
          0x00000000#32 reduces_S512x1_S1 (.inl rfl) rfl)
        shapeCasts_S1_S1x1) shapeCasts_S1x1_S1x1) broadcasts_S1x1_S8x128) shapeCasts_S8x128_S1x8x128 y
      = ∑ i : Fin 512, ∑ j : Fin 512, x (ix2 i j) := by
  refine (splat_apply _ y).trans ?_
  refine (colSum_apply _ _ _ (0 : Fin 1)).trans ?_
  refine Finset.sum_congr rfl fun i _ => ?_
  refine (keepCol_apply _ i (0 : Fin 1)).trans ?_
  exact rowSum_apply x _ _ i

/-- The first closing store's value at every entry: the sum over (i, j) of the squared difference. -/
theorem pay5_apply (v26 v27 : Vec Ideal S512x512 .f32) (y : S1x8x128.Idx) :
    k0_pay5 (F := Ideal) v26 v27 y
      = ∑ i : Fin 512, ∑ j : Fin 512, (v26 (ix2 i j) - v27 (ix2 i j)) * (v26 (ix2 i j) - v27 (ix2 i j)) := by
  unfold k0_pay5
  exact total_apply (mulf (subf v26 v27) (subf v26 v27)) y

/-- The second closing store's value at every entry: the sum over (i, j) of the product. -/
theorem pay6_apply (v34 v35 : Vec Ideal S512x512 .f32) (y : S1x8x128.Idx) :
    k0_pay6 (F := Ideal) v34 v35 y = ∑ i : Fin 512, ∑ j : Fin 512, v34 (ix2 i j) * v35 (ix2 i j) := by
  unfold k0_pay6
  exact total_apply (mulf v34 v35) y

end Cert.KernelIdeal.Pay

end
-- ==== Proof.SpecTiles.lean ====
/-
  The Gram sum over the 65536 columns, cut into 32 tiles of 2048 consecutive columns.

  tile x d i j is the part of gram x i j contributed by the columns d * 2048, ..., d * 2048 + 2047, and gramUpTo x n i j
  is the sum of the tiles numbered below n. The partial sums start at zero, grow by one tile at a time, and the sum of all
  32 tiles is the Gram entry: every column number below 65536 is d * 2048 + k for exactly one tile d and one offset k.
  The extended reals are a commutative additive monoid, so the finite sums rearrange freely.
-/
import proofs.«146373_j18141941858429_1_alg».proof.Proof.Spec
import Mathlib.Algebra.BigOperators.Group.Finset.Basic
import Mathlib.Algebra.BigOperators.Group.Finset.Piecewise
import Mathlib.Algebra.BigOperators.Group.Finset.Sigma
import Mathlib.Data.Fintype.BigOperators
import Mathlib.Logic.Equiv.Fin.Basic

noncomputable section

namespace Cert.Spec

open Idealize.ShloMosaic Idealize.ShloMosaic.ValueIdx

/-- The contribution of column tile d to entry (i, j) of the Gram matrix. -/
def tile (x : Arr) (d : Fin 32) (i j : Fin 512) : EReal :=
  ∑ k : Fin 2048, x (ix3 0 i ⟨d.val * 2048 + k.val, by omega⟩) * x (ix3 0 j ⟨d.val * 2048 + k.val, by omega⟩)

/-- The sum of the first n tiles. -/
def gramUpTo (x : Arr) (n : ℕ) (i j : Fin 512) : EReal := ∑ d : Fin 32, if d.val < n then tile x d i j else 0

/-- No tile is numbered below zero: the empty partial sum is zero. -/
theorem gramUpTo_zero (x : Arr) (i j : Fin 512) : gramUpTo x 0 i j = 0 := by
  unfold gramUpTo
  exact Finset.sum_eq_zero fun d _ => if_neg (Nat.not_lt_zero d.val)

/-- The tiles numbered below d + 1 are those numbered below d, and tile d. -/
theorem gramUpTo_succ (x : Arr) (d : Fin 32) (i j : Fin 512) :
    gramUpTo x (d.val + 1) i j = gramUpTo x d.val i j + tile x d i j := by
  unfold gramUpTo
  have h : ∀ e : Fin 32, (if e.val < d.val + 1 then tile x e i j else 0)
      = (if e.val < d.val then tile x e i j else 0) + (if e = d then tile x e i j else 0) := by
    intro e
    by_cases h1 : e.val < d.val
    · have h2 : e ≠ d := fun h => by rw [h] at h1; exact lt_irrefl _ h1
      rw [if_pos (Nat.lt_succ_of_lt h1), if_pos h1, if_neg h2, add_zero]
    · by_cases h2 : e = d
      · rw [h2, if_pos (Nat.lt_succ_self d.val), if_neg (lt_irrefl d.val), if_pos rfl, zero_add]
      · have h3 : ¬ e.val < d.val + 1 := fun h3 => h2 (Fin.ext (by omega))
        rw [if_neg h3, if_neg h1, if_neg h2, add_zero]
  rw [Finset.sum_congr rfl (fun e _ => h e), Finset.sum_add_distrib, Finset.sum_ite_eq', if_pos (Finset.mem_univ d)]

/-- All 32 tiles together are the whole Gram sum: the pair (d, k) runs over the column d * 2048 + k. -/
theorem gramUpTo_all (x : Arr) (i j : Fin 512) : gramUpTo x 32 i j = gram x i j := by
  unfold gramUpTo gram
  have hcol : ∀ (d : Fin 32) (k : Fin 2048),
      (finProdFinEquiv (d, k) : Fin (32 * 2048)) = ⟨d.val * 2048 + k.val, by omega⟩ := fun d k =>
    Fin.ext (by show k.val + 2048 * d.val = d.val * 2048 + k.val; omega)
  calc ∑ d : Fin 32, (if d.val < 32 then tile x d i j else 0)
      = ∑ d : Fin 32, tile x d i j := Finset.sum_congr rfl fun d _ => if_pos d.isLt
    _ = ∑ d : Fin 32, ∑ k : Fin 2048,
          (fun q : Fin (32 * 2048) => x (ix3 0 i q) * x (ix3 0 j q)) (finProdFinEquiv (d, k)) :=
        Finset.sum_congr rfl fun d _ => Finset.sum_congr rfl fun k _ => by rw [hcol d k]
    _ = ∑ p : Fin 32 × Fin 2048,
          (fun q : Fin (32 * 2048) => x (ix3 0 i q) * x (ix3 0 j q)) (finProdFinEquiv p) :=
        (Fintype.sum_prod_type
          (fun p : Fin 32 × Fin 2048 => (fun q : Fin (32 * 2048) => x (ix3 0 i q) * x (ix3 0 j q)) (finProdFinEquiv p))).symm
    _ = ∑ q : Fin (32 * 2048), x (ix3 0 i q) * x (ix3 0 j q) :=
        Equiv.sum_comp finProdFinEquiv (fun q : Fin (32 * 2048) => x (ix3 0 i q) * x (ix3 0 j q))

end Cert.Spec

end
-- ==== Proof.KernelIdealAcc.lean ====
/-
  What the kernel's two accumulators hold after each grid point, at the extended reals.

  The grid point t = 32 * layer + tile adds, to each accumulator, the products of the layer's rows over column
  tile `tile` (2048 columns); at a layer's first tile the accumulator starts from zeros. So after the point of
  layer l and tile d the activation accumulator holds the sum of the first d + 1 tiles of the Gram matrix of layer
  l's activation array and the target accumulator the same of its target array; at the layer's last tile (d = 31)
  they hold the two Gram matrices, and the two numbers the body stores there are the squared Frobenius norms of
  their difference and of the target's.
-/
import proofs.«146373_j18141941858429_1_alg».proof.Proof.KernelIdealPieces
import proofs.«146373_j18141941858429_1_alg».proof.Proof.KernelIdealBlocks
import proofs.«146373_j18141941858429_1_alg».proof.Proof.Payloads
import proofs.«146373_j18141941858429_1_alg».proof.Proof.SpecTiles
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (m : (ℓ : Loc nD τ sig) → Buf (Elt Ideal) ℓ) (ρ : Dev nD → PrngReg)

open Cert.KernelIdeal.Pay

/-! ## The accumulators after each point -/

/-- The layer and the column tile of a grid point t = 32 * layer + tile. -/
def lay (t : Fin cfg0.N) : Fin 4 := ⟨t.val / 32, by have := t.isLt; have : cfg0.N = 128 := N_0; omega⟩
def til (t : Fin cfg0.N) : Fin 32 := ⟨t.val % 32, Nat.mod_lt _ (by decide)⟩

/-- The two input blocks at a point, at their literal type. -/
abbrev ablk (c : Dev nD) (t : Fin cfg0.N) : Vec Ideal S1x512x2048 .f32 := iblk m c 0 t
abbrev tblk (c : Dev nD) (t : Fin cfg0.N) : Vec Ideal S1x512x2048 .f32 := iblk m c 1 t

/-- What the activation accumulator and the target accumulator hold after point t. -/
def accA (c : Dev nD) (t : Fin cfg0.N) : Vec Ideal S512x512 .f32 := (outsAt0 m c t.val t.isLt).2.2.1
def accT (c : Dev nD) (t : Fin cfg0.N) : Vec Ideal S512x512 .f32 := (outsAt0 m c t.val t.isLt).2.2.2

/-- The point before a point that is not the first. -/
def prv (t : Fin cfg0.N) : Fin cfg0.N := ⟨t.val - 1, Nat.lt_of_le_of_lt (Nat.sub_le _ _) t.isLt⟩

/-- At the first tile of a layer the accumulator is the tile's products added to zeros. -/
theorem accA_reset (c : Dev nD) (t : Fin cfg0.N) (h0 : t.val % 32 = 0) :
    accA m c t = k0_pay3 (ablk m c t) (k0_pay1 (F := Ideal)) := by
  have h1 : ¬t.val % 32 = 31 := by omega
  unfold accA
  rw [outsAt0_A m c t h0 h1]; dsimp only
  exact sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)
theorem accT_reset (c : Dev nD) (t : Fin cfg0.N) (h0 : t.val % 32 = 0) :
    accT m c t = k0_pay4 (tblk m c t) (k0_pay2 (F := Ideal)) := by
  have h1 : ¬t.val % 32 = 31 := by omega
  unfold accT
  rw [outsAt0_A m c t h0 h1]; dsimp only
  exact sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

/-- At every later tile it is the tile's products added to what the point before left. -/
theorem accA_step (c : Dev nD) (t : Fin cfg0.N) (h0 : ¬t.val % 32 = 0) :
    accA m c t = k0_pay3 (ablk m c t) (accA m c (prv t)) := by
  unfold accA
  by_cases h1 : t.val % 32 = 31
  · rw [outsAt0_C m c t h0 h1]; dsimp only
    exact sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]; dsimp only
    exact sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
theorem accT_step (c : Dev nD) (t : Fin cfg0.N) (h0 : ¬t.val % 32 = 0) :
    accT m c t = k0_pay4 (tblk m c t) (accT m c (prv t)) := by
  unfold accT
  by_cases h1 : t.val % 32 = 31
  · rw [outsAt0_C m c t h0 h1]; dsimp only
    exact sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]; dsimp only
    exact sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At the last tile of a layer the two result windows' buffers are the two reductions of the accumulators. -/
theorem out2_C (c : Dev nD) (t : Fin cfg0.N) (h1 : t.val % 32 = 31) :
    (outsAt0 m c t.val t.isLt).1 = k0_pay5 (accT m c t) (accA m c t) := by
  have h0 : ¬t.val % 32 = 0 := by omega
  rw [accT_step m c t h0, accA_step m c t h0]
  rw [outsAt0_C m c t h0 h1]; dsimp only
  exact out0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
theorem out3_C (c : Dev nD) (t : Fin cfg0.N) (h1 : t.val % 32 = 31) :
    (outsAt0 m c t.val t.isLt).2.1 = k0_pay6 (accT m c t) (accT m c t) := by
  have h0 : ¬t.val % 32 = 0 := by omega
  rw [accT_step m c t h0]
  rw [outsAt0_C m c t h0 h1]; dsimp only
  exact out0_C_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The blocks read at an entry, over the literal-type names. -/
theorem ablk_apply (c : Dev nD) (t : Fin cfg0.N) (i : Fin 512) (k : Fin 2048) :
    ablk m c t (ix3 0 i k) = actArr m c (lay t) (ix3 0 i ⟨(til t).val * 2048 + k.val, by have := k.isLt; have := (til t).isLt; omega⟩) :=
  iblk0_apply m c t i k
theorem tblk_apply (c : Dev nD) (t : Fin cfg0.N) (i : Fin 512) (k : Fin 2048) :
    tblk m c t (ix3 0 i k) = tgtArr m c (lay t) (ix3 0 i ⟨(til t).val * 2048 + k.val, by have := k.isLt; have := (til t).isLt; omega⟩) :=
  iblk1_apply m c t i k

/-- Adding tile d to the sum of the first d tiles gives the sum of the first d + 1. -/
theorem gram_next (x : Arr) (t : Fin cfg0.N) (i j : Fin 512) (P : EReal) (hP : P = gramUpTo x (til t).val i j) :
    P + tile x (til t) i j = gramUpTo x (t.val % 32 + 1) i j := by
  rw [hP]; exact (gramUpTo_succ x (til t) i j).symm

/-- One tile's step at an entry: the old entry plus the tile's contribution to the layer's Gram entry. -/
theorem pay3_step (c : Dev nD) (t : Fin cfg0.N) (prev : Vec Ideal S512x512 .f32) (i j : Fin 512) :
    k0_pay3 (ablk m c t) prev (ix2 i j) = prev (ix2 i j) + tile (actArr m c (lay t)) (til t) i j := by
  refine (pay3_apply (ablk m c t) prev i j).trans ?_
  congr 1
  unfold tile
  refine Finset.sum_congr rfl fun k _ => ?_
  rw [ablk_apply m c t i k, ablk_apply m c t j k]
theorem pay4_step (c : Dev nD) (t : Fin cfg0.N) (prev : Vec Ideal S512x512 .f32) (i j : Fin 512) :
    k0_pay4 (tblk m c t) prev (ix2 i j) = prev (ix2 i j) + tile (tgtArr m c (lay t)) (til t) i j := by
  refine (pay4_apply (tblk m c t) prev i j).trans ?_
  congr 1
  unfold tile
  refine Finset.sum_congr rfl fun k _ => ?_
  rw [tblk_apply m c t i k, tblk_apply m c t j k]

/-- THE INVARIANT: after the point of layer l and tile d each accumulator holds the sum of the first d + 1 tiles of its
    layer's Gram matrix. By induction on the point: a layer's first tile starts from zeros, every later one from the
    point before, which is of the same layer. -/
theorem acc_inv (c : Dev nD) : ∀ (n : ℕ) (hn : n < cfg0.N) (i j : Fin 512),
    accA m c ⟨n, hn⟩ (ix2 i j) = gramUpTo (actArr m c (lay ⟨n, hn⟩)) (n % 32 + 1) i j
    ∧ accT m c ⟨n, hn⟩ (ix2 i j) = gramUpTo (tgtArr m c (lay ⟨n, hn⟩)) (n % 32 + 1) i j := by
  intro n
  induction n with
  | zero =>
    intro hn i j
    have h0 : (⟨0, hn⟩ : Fin cfg0.N).val % 32 = 0 := rfl
    constructor
    · rw [accA_reset m c _ h0, pay3_step, pay1_apply]
      exact gram_next _ ⟨0, hn⟩ i j 0 (gramUpTo_zero _ i j).symm
    · rw [accT_reset m c _ h0, pay4_step, pay2_apply]
      exact gram_next _ ⟨0, hn⟩ i j 0 (gramUpTo_zero _ i j).symm
  | succ n ih =>
    intro hn i j
    by_cases h0 : (n + 1) % 32 = 0
    · have h0' : (⟨n + 1, hn⟩ : Fin cfg0.N).val % 32 = 0 := h0
      have hd : (til ⟨n + 1, hn⟩).val = 0 := h0
      constructor
      · rw [accA_reset m c _ h0', pay3_step, pay1_apply]
        exact gram_next _ ⟨n + 1, hn⟩ i j 0 (by rw [hd]; exact (gramUpTo_zero _ i j).symm)
      · rw [accT_reset m c _ h0', pay4_step, pay2_apply]
        exact gram_next _ ⟨n + 1, hn⟩ i j 0 (by rw [hd]; exact (gramUpTo_zero _ i j).symm)
    · have h0' : ¬(⟨n + 1, hn⟩ : Fin cfg0.N).val % 32 = 0 := h0
      have hp : prv ⟨n + 1, hn⟩ = ⟨n, Nat.lt_of_succ_lt hn⟩ := Fin.ext (by show n + 1 - 1 = n; omega)
      have hl : lay ⟨n, Nat.lt_of_succ_lt hn⟩ = lay ⟨n + 1, hn⟩ := Fin.ext (by show n / 32 = (n + 1) / 32; omega)
      have hd : (til ⟨n + 1, hn⟩).val = n % 32 + 1 := by show (n + 1) % 32 = n % 32 + 1; omega
      obtain ⟨ihA, ihT⟩ := ih (Nat.lt_of_succ_lt hn) i j
      constructor
      · rw [accA_step m c _ h0', pay3_step, hp, ihA, hl]
        exact gram_next _ ⟨n + 1, hn⟩ i j _ (by rw [hd])
      · rw [accT_step m c _ h0', pay4_step, hp, ihT, hl]
        exact gram_next _ ⟨n + 1, hn⟩ i j _ (by rw [hd])

/-- At a layer's last tile the accumulators hold the layer's two Gram matrices. -/
theorem accA_last (c : Dev nD) (t : Fin cfg0.N) (h1 : t.val % 32 = 31) (i j : Fin 512) :
    accA m c t (ix2 i j) = gram (actArr m c (lay t)) i j := by
  have h := (acc_inv m c t.val t.isLt i j).1
  rw [h1, gramUpTo_all] at h
  exact h
theorem accT_last (c : Dev nD) (t : Fin cfg0.N) (h1 : t.val % 32 = 31) (i j : Fin 512) :
    accT m c t (ix2 i j) = gram (tgtArr m c (lay t)) i j := by
  have h := (acc_inv m c t.val t.isLt i j).2
  rw [h1, gramUpTo_all] at h
  exact h

/-- So there the first result window's buffer holds, at every index, the squared Frobenius norm of the difference of the
    layer's Gram matrices, and the second the squared Frobenius norm of the target's. -/
theorem out2_val (c : Dev nD) (t : Fin cfg0.N) (h1 : t.val % 32 = 31) (y : S1x8x128.Idx) :
    (outsAt0 m c t.val t.isLt).1 y = numer (actArr m c (lay t)) (tgtArr m c (lay t)) := by
  rw [out2_C m c t h1]
  refine (pay5_apply (accT m c t) (accA m c t) y).trans ?_
  unfold numer
  refine Finset.sum_congr rfl fun i _ => Finset.sum_congr rfl fun j _ => ?_
  rw [accA_last m c t h1, accT_last m c t h1]
theorem out3_val (c : Dev nD) (t : Fin cfg0.N) (h1 : t.val % 32 = 31) (y : S1x8x128.Idx) :
    (outsAt0 m c t.val t.isLt).2.1 y = denom (tgtArr m c (lay t)) := by
  rw [out3_C m c t h1]
  refine (pay6_apply (accT m c t) (accT m c t) y).trans ?_
  unfold denom
  refine Finset.sum_congr rfl fun i _ => Finset.sum_congr rfl fun j _ => ?_
  rw [accT_last m c t h1]

end Cert.KernelIdeal.Fr

end
-- ==== Proof.Tail.lean ====
/-
  The host operations after the kernel, as one function of the kernel's two 4 x 8 x 128 result arrays.

  From each result the entry (l, 0, 0) of every layer l is taken (a slice to 4 x 1 x 1, recast to a vector of four),
  the square roots of the two vectors are divided entry by entry, and the four quotients are added from zero; the sum
  is laid out as a one-element array. Read at the extended reals, the one element is the sum over the four layers of
  the quotient of the square roots of the two entries (l, 0, 0), added in the layers' order.
-/
import proofs.«146373_j18141941858429_1_alg».proof.Proof.Gen.KernelIdeal
import Idealize.ShloMosaic.Lib.Pipeline.Value
import Idealize.ShloMosaic.Lib.ValueIdx
import Idealize.ShloMosaic.Lib.IdealHost
import Idealize.ShloMosaic.PureOps.Ideal.Laws
import Mathlib.Algebra.BigOperators.Fin

noncomputable section

namespace Cert.KernelIdeal.Tail

open Cert.KernelIdeal Idealize.ShloMosaic Idealize.ShloMosaic.ValueIdx

variable {F : FTy → Type} [FloatOps F]

/-- Slice entry (l, 0, 0) of each result, square roots, the quotient, the sum over the four layers from zero, as a
    one-element array. -/
def tailFn (o2 o3 : FVec F S4x8x128 .f32) : FVec F S1 .f32 :=
  broadcastInDim S1 ![] Facts₀.bcast_S_S1
    (Host.reduceAdd
      (Host.divf (Host.sqrt (shapeCast S4 (extractStridedSlice S4x1x1 ![0, 0, 0] o2 Facts₀.slices_S4x8x128_S4x1x1_0_0_0) Facts₀.shapeCasts_S4x1x1_S4))
                 (Host.sqrt (shapeCast S4 (extractStridedSlice S4x1x1 ![0, 0, 0] o3 Facts₀.slices_S4x8x128_S4x1x1_0_0_0) Facts₀.shapeCasts_S4x1x1_S4)))
      (constant S_ .f32 0x00000000#32) Facts₀.reducesTo_S4_S_d0 Facts₀.h_S_)

/-- The slice of a result to its entries (l, 0, 0), recast to a vector of four, reads at l the entry (l, 0, 0). -/
theorem layerEntry_apply {α : Type} (o : S4x8x128.Idx → α) (hs : S4x8x128.Slices ![0, 0, 0] S4x1x1) (hc : S4x1x1.ShapeCasts S4)
    (l : Fin 4) :
    shapeCast S4 (extractStridedSlice S4x1x1 ![0, 0, 0] o hs) hc (ix1 l) = o (ix3 l 0 0) := by
  refine (shapeCast_apply _ hc (ix1 l) (ix3 l (0 : Fin 1) (0 : Fin 1)) ?_).trans ?_
  · rw [Shape.rowMajor_val_three, Shape.rowMajor_val_one]
    show (l.val * 1 + 0) * 1 + 0 = l.val
    omega
  · exact extractStridedSlice_apply ![0, 0, 0] o hs (ix3 l (0 : Fin 1) (0 : Fin 1)) (ix3 l (0 : Fin 8) (0 : Fin 128))
      (fun a => match a with
        | ⟨0, _⟩ => (Nat.zero_add l.val).symm
        | ⟨1, _⟩ => rfl
        | ⟨2, _⟩ => rfl)

/-- A sum over the indices of a vector is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

/-- The quotient of the square roots of two vectors, read at an entry. -/
theorem quot_apply (a b : FVec Ideal S4 .f32) (l : Fin 4) :
    Host.divf (Host.sqrt a) (Host.sqrt b) (ix1 l) = Ideal.div (Ideal.sqrt (a (ix1 l))) (Ideal.sqrt (b (ix1 l))) := rfl

/-- At the extended reals the one element is the sum, over the four layers in order, of the square root of the first
    result's entry (l, 0, 0) divided by the square root of the second result's entry (l, 0, 0). -/
theorem tailFn_apply (o2 o3 : FVec Ideal S4x8x128 .f32) (y : S1.Idx) :
    tailFn (F := Ideal) o2 o3 y
      = Ideal.div (Ideal.sqrt (o2 (ix3 0 0 0))) (Ideal.sqrt (o3 (ix3 0 0 0))) + Ideal.div (Ideal.sqrt (o2 (ix3 1 0 0))) (Ideal.sqrt (o3 (ix3 1 0 0)))
        + Ideal.div (Ideal.sqrt (o2 (ix3 2 0 0))) (Ideal.sqrt (o3 (ix3 2 0 0))) + Ideal.div (Ideal.sqrt (o2 (ix3 3 0 0))) (Ideal.sqrt (o3 (ix3 3 0 0))) := by
  unfold tailFn
  refine (broadcastInDim_scalar_apply _ _ y).trans ?_
  refine (hostReduceAdd_apply _ _ _ _ ix0).trans ?_
  refine (Ideal.hostReduceAdd_total _ (fun b => b.elim0) _ _ ix0).trans ?_
  rw [sum_idx1, Fin.sum_univ_four, constant_apply, Ideal.ofBits_zero_f32, zero_add,
    quot_apply, quot_apply, quot_apply, quot_apply,
    layerEntry_apply o2, layerEntry_apply o2, layerEntry_apply o2, layerEntry_apply o2,
    layerEntry_apply o3, layerEntry_apply o3, layerEntry_apply o3, layerEntry_apply o3]

end Cert.KernelIdeal.Tail

end
-- ==== Proof.KernelIdealResult.lean ====
/-
  The kernel program's result, at the extended reals.

  Each of the two 4 x 8 x 128 result arrays is written back only at a layer's last tile, one 1 x 8 x 128 block
  per layer, and those four blocks cover the array; so after the run the first array holds in layer l's slab the
  squared Frobenius norm of the difference of the layer's Gram matrices and the second the squared Frobenius norm
  of the target's. The ten host operations after the region take the entries (l, 0, 0), divide the square roots
  and add the four quotients: the specification's function of the eight argument arrays.
-/
import proofs.«146373_j18141941858429_1_alg».proof.Proof.KernelIdealAcc
import proofs.«146373_j18141941858429_1_alg».proof.Proof.Tail

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (m : (ℓ : Loc nD τ sig) → Buf (Elt Ideal) ℓ) (ρ : Dev nD → PrngReg)

/-! ## The two result arrays after the run -/

/-- Each result window's block index at a point is (layer, 0, 0). -/
theorem idx_facts2 : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)
theorem idx_facts3 : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)

/-- The layer of an index of a 4 x 8 x 128 result array. -/
def layOf (i : S4x8x128.Idx) : Fin 4 := ⟨(i 0).val, (i 0).isLt⟩

/-- The first result array holds, in layer l's 8 x 128 slab, the squared Frobenius norm of the difference of the layer's
    Gram matrices; the second the squared Frobenius norm of the target's. -/
def G2 (c : Dev nD) : S4x8x128.Idx → EReal := fun i => numer (actArr m c (layOf i)) (tgtArr m c (layOf i))
def G3 (c : Dev nD) : S4x8x128.Idx → EReal := fun i => denom (tgtArr m c (layOf i))

/-- What a flushing point writes back into result window 2 is its block of one whole-array function. -/
theorem flushed2_eq (c : Dev nD) (t : Fin cfg0.N) (hf : (cfg0.win 2).flush t = true) :
    (dats m 0 c).flushed 2 t = ((cfg0.win 2).blk t).view.read (Elt Ideal) (G2 m c) := by
  have h1 : t.val % 32 = 31 := (flush0_2 t).mp hf
  show (cfg0.win 2).cut (grid0.coords t) ((dats m 0 c).after 2 t) = _
  rw [after0_2]
  funext y
  show (outsAt0 m c t.val t.isLt).1 y = G2 m c (((cfg0.win 2).blk t).view.emb y)
  rw [out2_val m c t h1 y]
  have hl : layOf (((cfg0.win 2).blk t).view.emb y) = lay t := Fin.ext (by
    show win0_2.index t (0 : Fin 3) * 1 + 1 * (y 0).val = t.val / 32
    have hy : (y 0).val < 1 := (y 0).isLt
    have := (idx_facts2 t).1; omega)
  unfold G2; rw [hl]

/-- An index of the array is in point t's block of window 2 iff each coordinate is in the block's range. -/
theorem mem_blk2 (t : Fin cfg0.N) (i : S4x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v18_0).slice (win0_2.rect t)).set ↔ _
  rw [View.set_slice_whole, Rect.mem_set_unit]
  exact Iff.rfl

/-- Every index of the array is in the block of its layer's last tile, which is written back. -/
theorem cover2 (i : S4x8x128.Idx) : ∃ t : Fin cfg0.N, (cfg0.win 2).flush t = true ∧ i ∈ ((cfg0.win 2).blk t).view.set := by
  have hi0 : (i 0).val < 4 := (i 0).isLt
  have hi1 : (i 1).val < 8 := (i 1).isLt
  have hi2 : (i 2).val < 128 := (i 2).isLt
  obtain ⟨t, ht⟩ : ∃ t : Fin cfg0.N, t.val = 32 * (i 0).val + 31 := ⟨⟨32 * (i 0).val + 31, by have : cfg0.N = 128 := N_0; omega⟩, rfl⟩
  refine ⟨t, (flush0_2 t).mpr (by omega), ?_⟩
  rw [mem_blk2]
  obtain ⟨e0, e1, e2⟩ := idx_facts2 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- Result array 0 after the run. -/
theorem final2 (c : Dev nD) : (dats m 0 c).arrAt 2 cfg0.N = G2 m c :=
  (dats m 0 c).arrAt_eq_of_cover 2 (G2 m c) (fun t hf => flushed2_eq m c t hf) cover2

/-- What a flushing point writes back into result window 3 is its block of one whole-array function. -/
theorem flushed3_eq (c : Dev nD) (t : Fin cfg0.N) (hf : (cfg0.win 3).flush t = true) :
    (dats m 0 c).flushed 3 t = ((cfg0.win 3).blk t).view.read (Elt Ideal) (G3 m c) := by
  have h1 : t.val % 32 = 31 := (flush0_3 t).mp hf
  show (cfg0.win 3).cut (grid0.coords t) ((dats m 0 c).after 3 t) = _
  rw [after0_3]
  funext y
  show (outsAt0 m c t.val t.isLt).2.1 y = G3 m c (((cfg0.win 3).blk t).view.emb y)
  rw [out3_val m c t h1 y]
  have hl : layOf (((cfg0.win 3).blk t).view.emb y) = lay t := Fin.ext (by
    show win0_3.index t (0 : Fin 3) * 1 + 1 * (y 0).val = t.val / 32
    have hy : (y 0).val < 1 := (y 0).isLt
    have := (idx_facts3 t).1; omega)
  unfold G3; rw [hl]

/-- An index of the array is in point t's block of window 3 iff each coordinate is in the block's range. -/
theorem mem_blk3 (t : Fin cfg0.N) (i : S4x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v18_1).slice (win0_3.rect t)).set ↔ _
  rw [View.set_slice_whole, Rect.mem_set_unit]
  exact Iff.rfl

/-- Every index of the array is in the block of its layer's last tile, which is written back. -/
theorem cover3 (i : S4x8x128.Idx) : ∃ t : Fin cfg0.N, (cfg0.win 3).flush t = true ∧ i ∈ ((cfg0.win 3).blk t).view.set := by
  have hi0 : (i 0).val < 4 := (i 0).isLt
  have hi1 : (i 1).val < 8 := (i 1).isLt
  have hi2 : (i 2).val < 128 := (i 2).isLt
  obtain ⟨t, ht⟩ : ∃ t : Fin cfg0.N, t.val = 32 * (i 0).val + 31 := ⟨⟨32 * (i 0).val + 31, by have : cfg0.N = 128 := N_0; omega⟩, rfl⟩
  refine ⟨t, (flush0_3 t).mpr (by omega), ?_⟩
  rw [mem_blk3]
  obtain ⟨e0, e1, e2⟩ := idx_facts3 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 128 ≤ (i 2).val ∧ (i 2).val < win0_3.index t (2 : Fin 3) * 128 + 128; omega

/-- Result array 1 after the run. -/
theorem final3 (c : Dev nD) : (dats m 0 c).arrAt 3 cfg0.N = G3 m c :=
  (dats m 0 c).arrAt_eq_of_cover 3 (G3 m c) (fun t hf => flushed3_eq m c t hf) cover3

/-! ## The result of @main -/

/-- After the ten later operations the program's result is the specification's function of the eight argument arrays:
    the entries (l, 0, 0) of the two result arrays are layer l's two squared norms. -/
theorem result_eq (c : Dev nD) :
    Pipeline.afterTail₀ cfgs (dats m) 0 (V0 m) [hostOps1] c main_v27
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : Pipeline.afterTail₀ cfgs (dats m) 0 (V0 m) [hostOps1] c main_v27
      = Cert.KernelIdeal.Tail.tailFn (F := Ideal) ((dats m 0 c).arrAt 2 cfg0.N) ((dats m 0 c).arrAt 3 cfg0.N) := by
    unfold Pipeline.afterTail₀
    show StableHlo.after hostOps1 _ (Proc.devRef .tc main_v27) = _
    after_results
    rw [Pipeline.withArrays_arr spec0 launch0.win.arr_inj c _ _ 2, Pipeline.withArrays_arr spec0 launch0.win.arr_inj c _ _ 3]
    rfl
  rw [e, final2, final3]
  funext y
  rw [Cert.KernelIdeal.Tail.tailFn_apply]
  rfl

/-- The kernel program's run, re-posted: the result at the specification's function of the arguments, the arguments
    unchanged. -/
theorem run_G : θ_run defs (onTc (τ := τ) (main (F := Ideal))) ⟨m, fun _ => 0, ρ⟩ (fun r => ∀ c : Dev nD,
      r.2.mem ((c.tc : Thread nD τ).loc main_v27) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v27 (Pipeline.mem_restRefs_of main_v27 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.Fr

end
-- ==== Proof.RefValue.lean ====
/-
  The reference program's result is the specification's function of the eight argument arrays.

  Each layer flattens its two slabs to 512 x 65536, multiplies each by its own transpose (a Gram matrix), takes
  the square root of the sum of squares of the difference and of the target's Gram matrix over the 512 x 512
  entries, and divides. The four quotients are stacked as a 4 x 1 array and summed down the stack from zero.
  The lemmas below read these steps at an index, one layer's once, and the other layers reuse them.
-/
import proofs.«146373_j18141941858429_1_alg».proof.Proof.Gen.ReferenceIdeal.Run
import proofs.«146373_j18141941858429_1_alg».proof.Proof.Gen.ReferenceIdeal.Read
import proofs.«146373_j18141941858429_1_alg».proof.Proof.Spec
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.RefValue

open Cert.ReferenceIdeal Cert.ReferenceIdeal.Read Idealize.ShloMosaic Idealize.ShloMosaic.TcCoe Idealize.SL.Sem
open Idealize.ShloMosaic.ValueIdx
open scoped BigOperators

/-- A layer's argument array, as the program types it. -/
abbrev A3 : Type := (⟨S1x512x65536, .f32⟩ : BufTy).Contents (Elt Ideal)

/-- Row i, column k of the slab, read through the reshape to 512 x 65536. -/
theorem flat_row (p : Fin 512) (q : Fin 512) (k : Fin 65536) :
    idx_main_v0 (lidx_main_v2 (ix2 p q) k) = ix3 (0 : Fin 1) p k :=
  funext fun a => Fin.ext (by
    have hp := p.isLt; have hk := k.isLt
    match a with
    | ⟨0, _⟩ => rfl
    | ⟨1, _⟩ => show (p.val * 65536 + k.val) / 65536 % 512 = p.val; omega
    | ⟨2, _⟩ => show (p.val * 65536 + k.val) % 65536 = k.val; omega)

/-- Row k, column j of the transpose is row j, column k of the slab. -/
theorem flat_col (p : Fin 512) (q : Fin 512) (k : Fin 65536) :
    idx_main_v0 (idx_main_v1 (ridx_main_v2 (ix2 p q) k)) = ix3 (0 : Fin 1) q k :=
  funext fun a => Fin.ext (by
    have hq := q.isLt; have hk := k.isLt
    match a with
    | ⟨0, _⟩ => rfl
    | ⟨1, _⟩ => show (q.val * 65536 + k.val) / 65536 % 512 = q.val; omega
    | ⟨2, _⟩ => show (q.val * 65536 + k.val) % 65536 = k.val; omega)

/-- The product of the flattened slab with its transpose, at (p, q), is the Gram entry. -/
theorem gram_entry (x : A3) (p q : Fin 512) :
    val_main_v2 (F := Ideal) x (ix2 p q) = Cert.Spec.gram x p q := by
  rw [val_main_v2_apply]
  unfold Cert.Spec.gram
  refine Finset.sum_congr rfl fun k _ => ?_
  rw [val_main_v1_apply, val_main_v0_apply, val_main_v0_apply, flat_row, flat_col]

/-- The zero word is the extended real zero, so a sum started from it is the sum. -/
theorem zero_word_add (s : EReal) : FloatOps.ofBits (F := Ideal) .f32 0x00000000#32 + s = s := by
  rw [Ideal.ofBits_def, Ideal.ofBits_zero_f32, zero_add]

/-- The sum of squares of (target's Gram - activation's Gram) over the 512 x 512 entries. -/
theorem numer_sum (a t : A3) (j : S_.Idx) :
    val_main_call0_v1 (F := Ideal) a t j = Cert.Spec.numer a t := by
  rw [val_main_call0_v1_apply, val_main_call0_cst_apply, zero_word_add, sum_idx2]
  unfold Cert.Spec.numer
  refine Finset.sum_congr rfl fun p _ => Finset.sum_congr rfl fun q _ => ?_
  rw [val_main_call0_v0_apply, val_main_v6_apply, Ideal.mulf_def, Ideal.subf_def, gram_entry,
    show val_main_v5 (F := Ideal) a (ix2 p q) = Cert.Spec.gram a p q from gram_entry a p q]

/-- The sum of squares of the target's Gram matrix over the 512 x 512 entries. -/
theorem denom_sum (t : A3) (j : S_.Idx) :
    val_main_call1_v1 (F := Ideal) t j = Cert.Spec.denom t := by
  rw [val_main_call1_v1_apply, val_main_call1_cst_apply, zero_word_add, sum_idx2]
  unfold Cert.Spec.denom
  refine Finset.sum_congr rfl fun p _ => Finset.sum_congr rfl fun q _ => ?_
  rw [val_main_call1_v0_apply, Ideal.mulf_def, gram_entry]

/-- One layer's quotient of norms. -/
theorem loss_scalar (a t : A3) (j : S_.Idx) :
    val_main_v9 (F := Ideal) a t j = Cert.Spec.loss a t := by
  rw [val_main_v9_apply, val_main_v7_apply, val_main_v8_apply, Ideal.hostDivf_def, Ideal.hostUnary_sqrt_def,
    Ideal.hostUnary_sqrt_def, numer_sum, denom_sum]
  rfl

/-- The layer's loss as a 1 x 1 array. -/
theorem loss_cell (a t : A3) (i : S1x1.Idx) :
    val_main_v44 (F := Ideal) a t i = Cert.Spec.loss a t := by
  rw [val_main_v44_apply, val_main_v10_apply, loss_scalar]

/-- Layers 1 to 3 run the same operations on their own arguments. -/
theorem loss_cell1 (a t : A3) (i : S1x1.Idx) : val_main_v45 (F := Ideal) a t i = Cert.Spec.loss a t := loss_cell a t i
theorem loss_cell2 (a t : A3) (i : S1x1.Idx) : val_main_v46 (F := Ideal) a t i = Cert.Spec.loss a t := loss_cell a t i
theorem loss_cell3 (a t : A3) (i : S1x1.Idx) : val_main_v47 (F := Ideal) a t i = Cert.Spec.loss a t := loss_cell a t i

/-- The index (0, c) of a 1 x 1 piece under row k of the 4 x 1 stack. -/
abbrev cellIdx (i : S1.Idx) : S1x1.Idx := fun a => match a with
  | ⟨0, _⟩ => ⟨0, Nat.one_pos⟩
  | ⟨1, _⟩ => ⟨(i 0).val, (i 0).isLt⟩

theorem cellIdx_off (i : S1.Idx) (k : Fin 4) (b : Fin S1x1.rank) (hb : b.cast (rfl : S1x1.rank = S4x1.rank) ≠ (0 : Fin S4x1.rank)) :
    (cellIdx i b).val = (idx_main_v49 i k (b.cast (rfl : S1x1.rank = S4x1.rank))).val := by
  match b with
  | ⟨0, _⟩ => exact absurd rfl hb
  | ⟨1, _⟩ => rfl

variable (x0 x1 x2 x3 x4 x5 x6 x7 : A3)

/-- Row 0 of the stack is layer 0's loss. -/
theorem stack_row0 (i : S1.Idx) :
    val_main_v48 (F := Ideal) x0 x1 x2 x3 x4 x5 x6 x7 (idx_main_v49 i 0) = Cert.Spec.loss x0 x4 := by
  unfold val_main_v48
  exact (concatenate_apply_piece (0 : Fin S4x1.rank)
    [⟨S1x1, val_main_v44 (F := Ideal) x0 x4⟩, ⟨S1x1, val_main_v45 (F := Ideal) x1 x5⟩, ⟨S1x1, val_main_v46 (F := Ideal) x2 x6⟩, ⟨S1x1, val_main_v47 (F := Ideal) x3 x7⟩]
    Gen.concatenates_S1x1_S1x1_S1x1_S1x1_S4x1_d0 (idx_main_v49 i 0)
    0 (by show (0 : ℕ) < 4; omega) S1x1 (val_main_v44 (F := Ideal) x0 x4) rfl rfl 0 rfl (cellIdx i) (cellIdx_off i 0) rfl).trans
    (loss_cell x0 x4 _)

/-- Row 1 is layer 1's. -/
theorem stack_row1 (i : S1.Idx) :
    val_main_v48 (F := Ideal) x0 x1 x2 x3 x4 x5 x6 x7 (idx_main_v49 i 1) = Cert.Spec.loss x1 x5 := by
  unfold val_main_v48
  exact (concatenate_apply_piece (0 : Fin S4x1.rank)
    [⟨S1x1, val_main_v44 (F := Ideal) x0 x4⟩, ⟨S1x1, val_main_v45 (F := Ideal) x1 x5⟩, ⟨S1x1, val_main_v46 (F := Ideal) x2 x6⟩, ⟨S1x1, val_main_v47 (F := Ideal) x3 x7⟩]
    Gen.concatenates_S1x1_S1x1_S1x1_S1x1_S4x1_d0 (idx_main_v49 i 1)
    1 (by show (1 : ℕ) < 4; omega) S1x1 (val_main_v45 (F := Ideal) x1 x5) rfl rfl 1 rfl (cellIdx i) (cellIdx_off i 1) rfl).trans
    (loss_cell1 x1 x5 _)

/-- Row 2 is layer 2's. -/
theorem stack_row2 (i : S1.Idx) :
    val_main_v48 (F := Ideal) x0 x1 x2 x3 x4 x5 x6 x7 (idx_main_v49 i 2) = Cert.Spec.loss x2 x6 := by
  unfold val_main_v48
  exact (concatenate_apply_piece (0 : Fin S4x1.rank)
    [⟨S1x1, val_main_v44 (F := Ideal) x0 x4⟩, ⟨S1x1, val_main_v45 (F := Ideal) x1 x5⟩, ⟨S1x1, val_main_v46 (F := Ideal) x2 x6⟩, ⟨S1x1, val_main_v47 (F := Ideal) x3 x7⟩]
    Gen.concatenates_S1x1_S1x1_S1x1_S1x1_S4x1_d0 (idx_main_v49 i 2)
    2 (by show (2 : ℕ) < 4; omega) S1x1 (val_main_v46 (F := Ideal) x2 x6) rfl rfl 2 rfl (cellIdx i) (cellIdx_off i 2) rfl).trans
    (loss_cell2 x2 x6 _)

/-- Row 3 is layer 3's. -/
theorem stack_row3 (i : S1.Idx) :
    val_main_v48 (F := Ideal) x0 x1 x2 x3 x4 x5 x6 x7 (idx_main_v49 i 3) = Cert.Spec.loss x3 x7 := by
  unfold val_main_v48
  exact (concatenate_apply_piece (0 : Fin S4x1.rank)
    [⟨S1x1, val_main_v44 (F := Ideal) x0 x4⟩, ⟨S1x1, val_main_v45 (F := Ideal) x1 x5⟩, ⟨S1x1, val_main_v46 (F := Ideal) x2 x6⟩, ⟨S1x1, val_main_v47 (F := Ideal) x3 x7⟩]
    Gen.concatenates_S1x1_S1x1_S1x1_S1x1_S4x1_d0 (idx_main_v49 i 3)
    3 (by show (3 : ℕ) < 4; omega) S1x1 (val_main_v47 (F := Ideal) x3 x7) rfl rfl 3 rfl (cellIdx i) (cellIdx_off i 3) rfl).trans
    (loss_cell3 x3 x7 _)

/-- The sum down the stack, started from zero, is the four losses added in order. -/
theorem total_eq (i : S1.Idx) :
    val_main_v49 (F := Ideal) x0 x1 x2 x3 x4 x5 x6 x7 i = Cert.Spec.total x0 x1 x2 x3 x4 x5 x6 x7 := by
  rw [val_main_v49_apply, val_main_cst_apply, zero_word_add, Fin.sum_univ_four, stack_row0, stack_row1, stack_row2,
    stack_row3]
  rfl

/-- The reference's result term is the specification's function of the eight arguments. -/
theorem res_eq (m : (ℓ : Loc nD τ sig) → Buf (Elt Ideal) ℓ) (c : Dev nD) :
    Cert.ReferenceIdeal.Value.res_main_v49 (F := Ideal) m c
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [val_main_v49_eq]
  funext i
  exact total_eq _ _ _ _ _ _ _ _ i

/-- Every weakly fair execution of the reference ends with the result at the specification's value and the arguments
    unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (res_eq m c), (h c).2⟩)
    (Cert.ReferenceIdeal.Value.run (F := Ideal) m ρ)

end Cert.ReferenceIdeal.RefValue

end
-- ==== Proof.lean ====
/-
  The certificate of the four-layer Gram-matrix loss kernel against its reference.

  Both programs take four activation arrays and four target arrays, each 1 x 512 x 65536. For a layer with
  activation a and target t the kernel accumulates the two Gram matrices a a^T and t t^T over 32 column tiles of
  2048 in two 512 x 512 accumulators, reduces (t t^T - a a^T) squared and (t t^T) squared to two numbers at the
  layer's last tile, and the host divides the square roots and adds the four layers' quotients; the reference
  forms each Gram matrix by one contraction over all 65536 columns, takes the two Frobenius norms and adds the
  four quotients. On the extended reals a change of float format is the identity and a sum may be split into
  tiles and regrouped freely, so both results are the one function Cert.Spec.G of the arguments.

  The frames of the two kernel programs are proved from the region's launch with an invariant that carries the two
  accumulators between grid points; the reference's frame is its run with the result dropped. The ideal pass
  rewrote nothing, so the preservation claim has no conjunct.
-/
import proofs.«146373_j18141941858429_1_alg».proof.Defs
import proofs.«146373_j18141941858429_1_alg».proof.Proof.KernelFrame
import proofs.«146373_j18141941858429_1_alg».proof.Proof.KernelIdealResult
import proofs.«146373_j18141941858429_1_alg».proof.Proof.RefValue
import proofs.«146373_j18141941858429_1_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Fr.frame m ρ

/-- So does the idealized kernel program. -/
theorem frame_kernelIdeal : Cert.frame_KernelIdeal := fun m ρ _ => Cert.KernelIdeal.Fr.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Run from memories that agree on the eight arguments, both idealized programs end with the result array at
    Cert.Spec.G of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Fr.run_G m ρ, ?_⟩
  refine (θ_run Cert.ReferenceIdeal.defs _ _).mono (fun _ h c => ⟨(h c).1.trans ?_, (h c).2⟩)
    (Cert.ReferenceIdeal.RefValue.run_G m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
